-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128 : Shape := ⟨3, ![16, 512, 128]⟩
abbrev S16x512x64 : Shape := ⟨3, ![16, 512, 64]⟩
abbrev S16x512x64x25 : Shape := ⟨4, ![16, 512, 64, 25]⟩
abbrev S128x128 : Shape := ⟨2, ![128, 128]⟩
abbrev S25x128 : Shape := ⟨2, ![25, 128]⟩
abbrev S128 : Shape := ⟨1, ![128]⟩
abbrev S_ : Shape := ⟨0, ![]⟩

class Facts : Prop where
  bcast_S_S16x512x128 : S_.BroadcastsInDim S16x512x128 (![] : Fin 0 → Fin S16x512x128.rank)
  reducesTo_S16x512x128_S_d0_1_2 : S16x512x128.ReducesTo [0, 1, 2] S_
  h_S_ : 0 < S_.numel
  bcast_S_S16x512x64 : S_.BroadcastsInDim S16x512x64 (![] : Fin 0 → Fin S16x512x64.rank)
  reducesTo_S16x512x64_S_d0_1_2 : S16x512x64.ReducesTo [0, 1, 2] S_
  bcast_S_S16x512x64x25 : S_.BroadcastsInDim S16x512x64x25 (![] : Fin 0 → Fin S16x512x64x25.rank)
  reducesTo_S16x512x64x25_S_d0_1_2_3 : S16x512x64x25.ReducesTo [0, 1, 2, 3] S_
  bcast_S_S128x128 : S_.BroadcastsInDim S128x128 (![] : Fin 0 → Fin S128x128.rank)
  reducesTo_S128x128_S_d0_1 : S128x128.ReducesTo [0, 1] S_
  bcast_S_S25x128 : S_.BroadcastsInDim S25x128 (![] : Fin 0 → Fin S25x128.rank)
  reducesTo_S25x128_S_d0_1 : S25x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg3 : IVec S16x512x64 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S16x512x64 32 := broadcastInDim S16x512x64 ![] bcast_S_S16x512x64 main_c_20
  let main_v55 : IVec S16x512x64 1 := cmpi .sge main_arg3 main_v54
  let main_c_21 : IVec S_ 32 := constantI S_ 32 512#32
  let main_v56 : IVec S16x512x64 32 := broadcastInDim S16x512x64 ![] bcast_S_S16x512x64 main_c_21
  let main_v57 : IVec S16x512x64 1 := cmpi .slt main_arg3 main_v56
  let main_v58 : IVec S16x512x64 1 := andi main_v55 main_v57
  let main_c_22 : IVec S_ 1 := constantI S_ 1 1#1
  let main_v59 : IVec S_ 1 := (fun x v => Host.reduce IntOp.andi x v reducesTo_S16x512x64_S_d0_1_2 h_S_) main_v58 main_c_22
  let main_v60 : IVec S_ 1 := andi main_v53 main_v59
  main_v60

def fn_part2 {F : FTy → Type} [FloatOps F] (main_arg3 : IVec S16x512x64 32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg3 main_v48 main_v49 main_v50

def fn_part1 {F : FTy → Type} [FloatOps F] (main_arg3 : IVec S16x512x64 32) (main_arg5 : FVec F S128x128 .f32) (main_arg6 : FVec F S25x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S16x512x64 1) : IVec S_ 1 :=
  let main_c_5 : IVec S_ 1 := constantI S_ 1 1#1
  let main_v17 : IVec S_ 1 := (fun x v => Host.reduce IntOp.andi x v reducesTo_S16x512x64_S_d0_1_2 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S25x128 .f32 := Host.absf main_arg6
  let main_cst_8 : FVec F S_ .f32 := constant S_ .f32 0x7F800000#32
  let main_v25 : FVec F S25x128 .f32 := broadcastInDim S25x128 ![] bcast_S_S25x128 main_cst_8
  let main_v26 : IVec S25x128 1 := cmpf .olt main_v24 main_v25
  let main_c_9 : IVec S_ 1 := constantI S_ 1 1#1
  let main_v27 : IVec S_ 1 := (fun x v => Host.reduce IntOp.andi x v reducesTo_S25x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg8 main_arg9 main_arg10 main_arg11 main_v33

def fn {F : FTy → Type} [FloatOps F] (main_arg0 : FVec F S16x512x128 .f32) (main_arg1 : FVec F S16x512x64 .f32) (main_arg2 : FVec F S16x512x64x25 .f32) (main_arg3 : IVec S16x512x64 32) (main_arg4 : FVec F S16x512x64 .f32) (main_arg5 : FVec F S128x128 .f32) (main_arg6 : FVec F S25x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S16x512x128 .f32 := Host.absf main_arg0
  let main_cst : FVec F S_ .f32 := constant S_ .f32 0x7F800000#32
  let main_v1 : FVec F S16x512x128 .f32 := broadcastInDim S16x512x128 ![] bcast_S_S16x512x128 main_cst
  let main_v2 : IVec S16x512x128 1 := cmpf .olt main_v0 main_v1
  let main_c : IVec S_ 1 := constantI S_ 1 1#1
  let main_v3 : IVec S_ 1 := (fun x v => Host.reduce IntOp.andi x v reducesTo_S16x512x128_S_d0_1_2 h_S_) main_v2 main_c
  let main_v4 : FVec F S16x512x64 .f32 := Host.absf main_arg1
  let main_cst_0 : FVec F S_ .f32 := constant S_ .f32 0x7F800000#32
  let main_v5 : FVec F S16x512x64 .f32 := broadcastInDim S16x512x64 ![] bcast_S_S16x512x64 main_cst_0
  let main_v6 : IVec S16x512x64 1 := cmpf .olt main_v4 main_v5
  let main_c_1 : IVec S_ 1 := constantI S_ 1 1#1
  let main_v7 : IVec S_ 1 := (fun x v => Host.reduce IntOp.andi x v reducesTo_S16x512x64_S_d0_1_2 h_S_) main_v6 main_c_1
  let main_v8 : IVec S_ 1 := andi main_v3 main_v7
  let main_v9 : FVec F S16x512x64x25 .f32 := Host.absf main_arg2
  let main_cst_2 : FVec F S_ .f32 := constant S_ .f32 0x7F800000#32
  let main_v10 : FVec F S16x512x64x25 .f32 := broadcastInDim S16x512x64x25 ![] bcast_S_S16x512x64x25 main_cst_2
  let main_v11 : IVec S16x512x64x25 1 := cmpf .olt main_v9 main_v10
  let main_c_3 : IVec S_ 1 := constantI S_ 1 1#1
  let main_v12 : IVec S_ 1 := (fun x v => Host.reduce IntOp.andi x v reducesTo_S16x512x64x25_S_d0_1_2_3 h_S_) main_v11 main_c_3
  let main_v13 : IVec S_ 1 := andi main_v8 main_v12
  let main_v14 : FVec F S16x512x64 .f32 := Host.absf main_arg4
  let main_cst_4 : FVec F S_ .f32 := constant S_ .f32 0x7F800000#32
  let main_v15 : FVec F S16x512x64 .f32 := broadcastInDim S16x512x64 ![] bcast_S_S16x512x64 main_cst_4
  let main_v16 : IVec S16x512x64 1 := cmpf .olt main_v14 main_v15
  fn_part1 (F := F) main_arg3 main_arg5 main_arg6 main_arg7 main_arg8 main_arg9 main_arg10 main_arg11 main_v13 main_v16
-- ==== Kernel.lean ====
abbrev S16x512x128 : Shape := ⟨3, ![16, 512, 128]⟩
abbrev S16x512x64 : Shape := ⟨3, ![16, 512, 64]⟩
abbrev S16x512x64x25 : Shape := ⟨4, ![16, 512, 64, 25]⟩
abbrev S128x128 : Shape := ⟨2, ![128, 128]⟩
abbrev S25x128 : Shape := ⟨2, ![25, 128]⟩
abbrev S128 : Shape := ⟨1, ![128]⟩
abbrev S1x128 : Shape := ⟨2, ![1, 128]⟩
abbrev S1x512x128 : Shape := ⟨3, ![1, 512, 128]⟩
abbrev S1x128x64x25 : Shape := ⟨4, ![1, 128, 64, 25]⟩
abbrev S1x128x64 : Shape := ⟨3, ![1, 128, 64]⟩
abbrev S1x128x128 : Shape := ⟨3, ![1, 128, 128]⟩
abbrev S512x128 : Shape := ⟨2, ![512, 128]⟩
abbrev S128x64x25 : Shape := ⟨3, ![128, 64, 25]⟩
abbrev S8192x25 : Shape := ⟨2, ![8192, 25]⟩
abbrev S8192x128 : Shape := ⟨2, ![8192, 128]⟩
abbrev S128x64x128 : Shape := ⟨3, ![128, 64, 128]⟩
abbrev S128x64 : Shape := ⟨2, ![128, 64]⟩
abbrev S8192x1 : Shape := ⟨2, ![8192, 1]⟩
abbrev S8192x512 : Shape := ⟨2, ![8192, 512]⟩
abbrev S128x64x1 : Shape := ⟨3, ![128, 64, 1]⟩

abbrev nBuf : Space → Nat
  | .hbm => 16
  | .vmem => 17
  | .smem => 0
  | _ => 0

abbrev bufTy : (tb : Table) → Fin (tcTables nBuf tb) → BufTy
  | .hbm, ⟨0, _⟩ => ⟨S16x512x128, .f32⟩
  | .hbm, ⟨1, _⟩ => ⟨S16x512x64, .f32⟩
  | .hbm, ⟨2, _⟩ => ⟨S16x512x64x25, .f32⟩
  | .hbm, ⟨3, _⟩ => ⟨S16x512x64, .i32⟩
  | .hbm, ⟨4, _⟩ => ⟨S16x512x64, .f32⟩
  | .hbm, ⟨5, _⟩ => ⟨S128x128, .f32⟩
  | .hbm, ⟨6, _⟩ => ⟨S25x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S16x512x128, .f32⟩
  | .local _ .vmem, ⟨0, _⟩ => ⟨S1x512x128, .f32⟩
  | .local _ .vmem, ⟨1, _⟩ => ⟨S1x512x128, .f32⟩
  | .local _ .vmem, ⟨2, _⟩ => ⟨S1x128x64x25, .f32⟩
  | .local _ .vmem, ⟨3, _⟩ => ⟨S1x128x64x25, .f32⟩
  | .local _ .vmem, ⟨4, _⟩ => ⟨S1x128x64, .i32⟩
  | .local _ .vmem, ⟨5, _⟩ => ⟨S1x128x64, .i32⟩
  | .local _ .vmem, ⟨6, _⟩ => ⟨S1x128x64, .f32⟩
  | .local _ .vmem, ⟨7, _⟩ => ⟨S1x128x64, .f32⟩
  | .local _ .vmem, ⟨8, _⟩ => ⟨S128x128, .f32⟩
  | .local _ .vmem, ⟨9, _⟩ => ⟨S25x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x128x128, .f32⟩
  | .local _ .vmem, ⟨16, _⟩ => ⟨S1x128x128, .f32⟩
  | _, _ => ⟨S16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S25x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S128_S1x128 : S128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128x64x25_S1x128x64x25_0_0_0_0 : ∀ a, (![0, 0, 0, 0] : Fin 4 → Nat) a + S1x128x64x25.size a ≤ S1x128x64x25.size a
  h_S1x128x64x25 : 0 < S1x128x64x25.numel
  shapeCasts_S1x128x64x25_S128x64x25 : S1x128x64x25.ShapeCasts S128x64x25
  shapeCasts_S128x64x25_S8192x25 : S128x64x25.ShapeCasts S8192x25
  inb_S25x128_S25x128_0_0 : ∀ a, (![0, 0] : Fin 2 → Nat) a + S25x128.size a ≤ S25x128.size a
  h_S25x128 : 0 < S25x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  shapeCasts_S8192x128_S128x64x128 : S8192x128.ShapeCasts S128x64x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S8192x1 : S128x64.ShapeCasts S8192x1
  iota_S8192x512_d1_w32 : S8192x512.Iotas .tc 32 [1]
  broadcasts_S8192x1_S8192x512 : S8192x1.Broadcasts S8192x512
  natLt_1_32 : 1 < 32
  shapeCasts_S128x64_S128x64x1 : S128x64.ShapeCasts S128x64x1
  broadcasts_S128x64x1_S128x64x128 : S128x64x1.Broadcasts S128x64x128
  reduces_S128x64x128_S128x128 : S128x64x128.Reduces [1] S128x128
  broadcasts_S1x128_S128x128 : S1x128.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S512x128_S128x128_S512x128_1_0_0_1_n_n_wf : DotDims.WF S512x128 S128x128 S512x128 [1] [0] [0] [1] [] []
  dot_S8192x25_S25x128_S8192x128_1_0_0_1_n_n_wf : DotDims.WF S8192x25 S25x128 S8192x128 [1] [0] [0] [1] [] []
  dot_S8192x128_S128x128_S8192x128_1_0_0_1_n_n_wf : DotDims.WF S8192x128 S128x128 S8192x128 [1] [0] [0] [1] [] []
  dot_S8192x512_S512x128_S8192x128_1_0_0_1_n_n_wf : DotDims.WF S8192x512 S512x128 S8192x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x512x128.size a
  hwx0_0 : ∀ i : grid0.Coords, EltTy.bits .f32 = 32 ∨ (Rect.block (s := S16x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64x25.size a ≤ S16x512x64x25.size a
  hwx0_1 : ∀ i : grid0.Coords, EltTy.bits .f32 = 32 ∨ (Rect.block (s := S16x512x64x25) S1x128x64x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S16x512x64.size a
  hwx0_2 : ∀ i : grid0.Coords, EltTy.bits .i32 = 32 ∨ (Rect.block (s := S16x512x64) S1x128x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S16x512x64.size a
  hwx0_3 : ∀ i : grid0.Coords, EltTy.bits .f32 = 32 ∨ (Rect.block (s := S16x512x64) S1x128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S25x128.size a ≤ S25x128.size a
  hwx0_5 : ∀ i : grid0.Coords, EltTy.bits .f32 = 32 ∨ (Rect.block (s := S25x128) S25x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x128.size a ≤ S16x512x128.size a
  hwx0_11 : ∀ i : grid0.Coords, EltTy.bits .f32 = 32 ∨ (Rect.block (s := S16x512x128) S1x128x128.size (cc0_transform_11 i) (hinb0_11 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S8192x25_S25x128_S8192x128_1_0_0_1_n_n : DotDims S8192x25 S25x128 S8192x128 where
  lhsContracting := [1]
  rhsContracting := [0]
  lhsNonContracting := [0]
  rhsNonContracting := [1]
  lhsBatch := []
  rhsBatch := []
  wf := dot_S8192x25_S25x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x64x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S25x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x512x128 : Shape := ⟨3, ![16, 512, 128]⟩
abbrev S16x512x64 : Shape := ⟨3, ![16, 512, 64]⟩
abbrev S16x512x64x25 : Shape := ⟨4, ![16, 512, 64, 25]⟩
abbrev S128x128 : Shape := ⟨2, ![128, 128]⟩
abbrev S25x128 : Shape := ⟨2, ![25, 128]⟩
abbrev S128 : Shape := ⟨1, ![128]⟩
abbrev S16x512x64x128 : Shape := ⟨4, ![16, 512, 64, 128]⟩
abbrev S1x1x1x128 : Shape := ⟨4, ![1, 1, 1, 128]⟩
abbrev S_ : Shape := ⟨0, ![]⟩
abbrev S16x32768x1 : Shape := ⟨3, ![16, 32768, 1]⟩
abbrev S1 : Shape := ⟨1, ![1]⟩
abbrev S1x1x1 : Shape := ⟨3, ![1, 1, 1]⟩
abbrev S16x32768 : Shape := ⟨2, ![16, 32768]⟩
abbrev S16x32768x128 : Shape := ⟨3, ![16, 32768, 128]⟩
abbrev S16x512x64x1 : Shape := ⟨4, ![16, 512, 64, 1]⟩
abbrev S1x1x128 : Shape := ⟨3, ![1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S16x512x128, .f32⟩
  | .hbm, ⟨1, _⟩ => ⟨S16x512x64, .f32⟩
  | .hbm, ⟨2, _⟩ => ⟨S16x512x64x25, .f32⟩
  | .hbm, ⟨3, _⟩ => ⟨S16x512x64, .i32⟩
  | .hbm, ⟨4, _⟩ => ⟨S16x512x64, .f32⟩
  | .hbm, ⟨5, _⟩ => ⟨S128x128, .f32⟩
  | .hbm, ⟨6, _⟩ => ⟨S25x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S16x512x64x128, .f32⟩
  | .hbm, ⟨13, _⟩ => ⟨S1x1x1x128, .f32⟩
  | .hbm, ⟨14, _⟩ => ⟨S16x512x64x128, .f32⟩
  | .hbm, ⟨15, _⟩ => ⟨S16x512x64x128, .f32⟩
  | .hbm, ⟨16, _⟩ => ⟨S_, .f32⟩
  | .hbm, ⟨17, _⟩ => ⟨S16x512x64x128, .f32⟩
  | .hbm, ⟨18, _⟩ => ⟨S16x512x64x128, .f32⟩
  | .hbm, ⟨19, _⟩ => ⟨S16x512x64x128, .f32⟩
  | .hbm, ⟨20, _⟩ => ⟨S16x512x64x128, .f32⟩
  | .hbm, ⟨21, _⟩ => ⟨S16x512x64x128, .i1⟩
  | .hbm, ⟨22, _⟩ => ⟨S16x512x64x128, .f32⟩
  | .hbm, ⟨23, _⟩ => ⟨S16x512x64x128, .f32⟩
  | .hbm, ⟨24, _⟩ => ⟨S16x512x64x128, .f32⟩
  | .hbm, ⟨25, _⟩ => ⟨S16x512x64x128, .f32⟩
  | .hbm, ⟨26, _⟩ => ⟨S16x512x64x128, .f32⟩
  | .hbm, ⟨27, _⟩ => ⟨S16x512x64x128, .f32⟩
  | .hbm, ⟨28, _⟩ => ⟨S16x512x64x128, .f32⟩
  | .hbm, ⟨29, _⟩ => ⟨S16x512x64x128, .f32⟩
  | .hbm, ⟨30, _⟩ => ⟨S_, .f32⟩
  | .hbm, ⟨31, _⟩ => ⟨S16x512x64x128, .f32⟩
  | .hbm, ⟨32, _⟩ => ⟨S16x512x64x128, .f32⟩
  | .hbm, ⟨33, _⟩ => ⟨S16x512x64x128, .f32⟩
  | .hbm, ⟨34, _⟩ => ⟨S1x1x1x128, .f32⟩
  | .hbm, ⟨35, _⟩ => ⟨S16x512x64x128, .f32⟩
  | .hbm, ⟨36, _⟩ => ⟨S16x512x64x128, .f32⟩
  | .hbm, ⟨37, _⟩ => ⟨S16x512x128, .f32⟩
  | .hbm, ⟨38, _⟩ => ⟨S16x32768x1, .i32⟩
  | .hbm, ⟨39, _⟩ => ⟨S_, .i32⟩
  | .hbm, ⟨40, _⟩ => ⟨S16x32768x1, .i32⟩
  | .hbm, ⟨41, _⟩ => ⟨S16x32768x1, .i1⟩
  | .hbm, ⟨42, _⟩ => ⟨S_, .i32⟩
  | .hbm, ⟨43, _⟩ => ⟨S16x32768x1, .i32⟩
  | .hbm, ⟨44, _⟩ => ⟨S16x32768x1, .i32⟩
  | .hbm, ⟨45, _⟩ => ⟨S16x32768x1, .i32⟩
  | .hbm, ⟨46, _⟩ => ⟨S1, .i32⟩
  | .hbm, ⟨47, _⟩ => ⟨S_, .i32⟩
  | .hbm, ⟨48, _⟩ => ⟨S16x32768x1, .i32⟩
  | .hbm, ⟨49, _⟩ => ⟨S16x32768x1, .i1⟩
  | .hbm, ⟨50, _⟩ => ⟨S1x1x1, .i32⟩
  | .hbm, ⟨51, _⟩ => ⟨S16x32768x1, .i32⟩
  | .hbm, ⟨52, _⟩ => ⟨S16x32768x1, .i1⟩
  | .hbm, ⟨53, _⟩ => ⟨S16x32768x1, .i1⟩
  | .hbm, ⟨54, _⟩ => ⟨S_, .i1⟩
  | .hbm, ⟨55, _⟩ => ⟨S16x32768, .i1⟩
  | .hbm, ⟨56, _⟩ => ⟨S16x32768x128, .f32⟩
  | .hbm, ⟨57, _⟩ => ⟨S16x32768x128, .i1⟩
  | .hbm, ⟨58, _⟩ => ⟨S_, .f32⟩
  | .hbm, ⟨59, _⟩ => ⟨S16x32768x128, .f32⟩
  | .hbm, ⟨60, _⟩ => ⟨S16x32768x128, .f32⟩
  | .hbm, ⟨61, _⟩ => ⟨S16x512x64x128, .f32⟩
  | .hbm, ⟨62, _⟩ => ⟨S16x512x64x128, .f32⟩
  | .hbm, ⟨63, _⟩ => ⟨S16x512x64x1, .f32⟩
  | .hbm, ⟨64, _⟩ => ⟨S16x512x64x128, .f32⟩
  | .hbm, ⟨65, _⟩ => ⟨S16x512x64x128, .f32⟩
  | .hbm, ⟨66, _⟩ => ⟨S_, .f32⟩
  | .hbm, ⟨67, _⟩ => ⟨S16x512x128, .f32⟩
  | .hbm, ⟨68, _⟩ => ⟨S16x512x128, .f32⟩
  | .hbm, ⟨69, _⟩ => ⟨S1x1x128, .f32⟩
  | .hbm, ⟨70, _⟩ => ⟨S16x512x128, .f32⟩
  | .hbm, ⟨71, _⟩ => ⟨S16x512x128, .f32⟩
  | .hbm, ⟨72, _⟩ => ⟨S_, .f32⟩
  | .hbm, ⟨73, _⟩ => ⟨S16x512x128, .f32⟩
  | .hbm, ⟨74, _⟩ => ⟨S16x512x128, .f32⟩
  | .hbm, ⟨75, _⟩ => ⟨S16x512x128, .f32⟩
  | .hbm, ⟨76, _⟩ => ⟨S16x512x128, .f32⟩
  | .hbm, ⟨77, _⟩ => ⟨S16x512x128, .i1⟩
  | .hbm, ⟨78, _⟩ => ⟨S16x512x128, .f32⟩
  | .hbm, ⟨79, _⟩ => ⟨S16x512x128, .f32⟩
  | .hbm, ⟨80, _⟩ => ⟨S16x512x128, .f32⟩
  | .hbm, ⟨81, _⟩ => ⟨S16x512x128, .f32⟩
  | .hbm, ⟨82, _⟩ => ⟨S16x512x128, .f32⟩
  | .hbm, ⟨83, _⟩ => ⟨S16x512x128, .f32⟩
  | .hbm, ⟨84, _⟩ => ⟨S16x512x128, .f32⟩
  | .hbm, ⟨85, _⟩ => ⟨S16x512x128, .f32⟩
  | .hbm, ⟨86, _⟩ => ⟨S_, .f32⟩
  | .hbm, ⟨87, _⟩ => ⟨S16x512x128, .f32⟩
  | .hbm, ⟨88, _⟩ => ⟨S16x512x128, .f32⟩
  | _, _ => ⟨S16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_0 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_v24 : Ref sig .tc := ⟨.hbm, 85, rfl⟩
abbrev main_cst_1 : Ref sig .tc := ⟨.hbm, 86, rfl⟩
abbrev main_v25 : Ref sig .tc := ⟨.hbm, 87, rfl⟩
abbrev main_v26 : Ref sig .tc := ⟨.hbm, 88, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S16x512x64x128_0_1_2_3 : S1x1x1x128.BroadcastsInDim S16x512x64x128 (![0, 1, 2, 3] : Fin 4 → Fin S16x512x64x128.rank)
  bcast_S_S16x512x64x128 : S_.BroadcastsInDim S16x512x64x128 (![] : Fin 0 → Fin S16x512x64x128.rank)
  shapeCasts_S16x512x64_S16x32768x1 : S16x512x64.ShapeCasts S16x32768x1
  bcast_S_S16x32768x1 : S_.BroadcastsInDim S16x32768x1 (![] : Fin 0 → Fin S16x32768x1.rank)
  bcast_S1_S1x1x1_2 : S1.BroadcastsInDim S1x1x1 (![2] : Fin 1 → Fin S1x1x1.rank)
  bcast_S1x1x1_S16x32768x1_0_1_2 : S1x1x1.BroadcastsInDim S16x32768x1 (![0, 1, 2] : Fin 3 → Fin S16x32768x1.rank)
  reducesTo_S16x32768x1_S16x32768_d2 : S16x32768x1.ReducesTo [2] S16x32768
  h_S_ : 0 < S_.numel
  bcast_S16x32768_S16x32768x128_0_1 : S16x32768.BroadcastsInDim S16x32768x128 (![0, 1] : Fin 2 → Fin S16x32768x128.rank)
  bcast_S_S16x32768x128 : S_.BroadcastsInDim S16x32768x128 (![] : Fin 0 → Fin S16x32768x128.rank)
  shapeCasts_S16x32768x128_S16x512x64x128 : S16x32768x128.ShapeCasts S16x512x64x128
  bcast_S16x512x64_S16x512x64x1_0_1_2 : S16x512x64.BroadcastsInDim S16x512x64x1 (![0, 1, 2] : Fin 3 → Fin S16x512x64x1.rank)
  bcast_S16x512x64x1_S16x512x64x128_0_1_2_3 : S16x512x64x1.BroadcastsInDim S16x512x64x128 (![0, 1, 2, 3] : Fin 4 → Fin S16x512x64x128.rank)
  reducesTo_S16x512x64x128_S16x512x128_d2 : S16x512x64x128.ReducesTo [2] S16x512x128
  bcast_S128_S1x1x128_2 : S128.BroadcastsInDim S1x1x128 (![2] : Fin 1 → Fin S1x1x128.rank)
  bcast_S1x1x128_S16x512x128_0_1_2 : S1x1x128.BroadcastsInDim S16x512x128 (![0, 1, 2] : Fin 3 → Fin S16x512x128.rank)
  bcast_S_S16x512x128 : S_.BroadcastsInDim S16x512x128 (![] : Fin 0 → Fin S16x512x128.rank)
  dot_S16x512x64x25_S25x128_S16x512x64x128_3_0_012_1_n_n_wf : DotDims.WF S16x512x64x25 S25x128 S16x512x64x128 [3] [0] [0, 1, 2] [1] [] []
  dot_S16x512x64x128_S128x128_S16x512x64x128_3_0_012_1_n_n_wf : DotDims.WF S16x512x64x128 S128x128 S16x512x64x128 [3] [0] [0, 1, 2] [1] [] []
  dot_S16x512x128_S128x128_S16x512x128_2_0_01_1_n_n_wf : DotDims.WF S16x512x128 S128x128 S16x512x128 [2] [0] [0, 1] [1] [] []
  gather_S16x512x128_S16x32768x1_S16x32768x128_2_1_0_0_1_2_11128_wf : GatherDims.WF S16x512x128 S16x32768x1 S16x32768x128 [2] [1] [0] [1] [0] 2 ![1, 1, 128]

variable [Facts₀]

def dot_S16x512x64x25_S25x128_S16x512x64x128_3_0_012_1_n_n : DotDims S16x512x64x25 S25x128 S16x512x64x128 where
  lhsContracting := [3]
  rhsContracting := [0]
  lhsNonContracting := [0, 1, 2]
  rhsNonContracting := [1]
  lhsBatch := []
  rhsBatch := []
  wf := dot_S16x512x64x25_S25x128_S16x512x64x128_3_0_012_1_n_n_wf
def dot_S16x512x64x128_S128x128_S16x512x64x128_3_0_012_1_n_n : DotDims S16x512x64x128 S128x128 S16x512x64x128 where
  lhsContracting := [3]
  rhsContracting := [0]
  lhsNonContracting := [0, 1, 2]
  rhsNonContracting := [1]
  lhsBatch := []
  rhsBatch := []
  wf := dot_S16x512x64x128_S128x128_S16x512x64x128_3_0_012_1_n_n_wf
def dot_S16x512x128_S128x128_S16x512x128_2_0_01_1_n_n : DotDims S16x512x128 S128x128 S16x512x128 where
  lhsContracting := [2]
  rhsContracting := [0]
  lhsNonContracting := [0, 1]
  rhsNonContracting := [1]
  lhsBatch := []
  rhsBatch := []
  wf := dot_S16x512x128_S128x128_S16x512x128_2_0_01_1_n_n_wf
def gather_S16x512x128_S16x32768x1_S16x32768x128_2_1_0_0_1_2_11128 : GatherDims S16x512x128 S16x32768x1 S16x32768x128 where
  offsetDims := [2]
  collapsedSliceDims := [1]
  operandBatchingDims := [0]
  startIndicesBatchingDims := [0]
  startIndexMap := [1]
  indexVectorDim := 2
  sliceSizes := ![1, 1, 128]
  wf := gather_S16x512x128_S16x32768x1_S16x32768x128_2_1_0_0_1_2_11128_wf

class Facts : Prop extends Facts₀ where

variable [Facts]
-- ==== Proof.Spec.lean ====
/-
  The continuous-filter convolution, as one function of the argument arrays over the extended reals.

  For a batch `b`, an atom `a`, a neighbour slot `n` and a feature `f`:
    y[b, a, f]      = Σ_k x[b, a, k] · W_in2f[k, f]                                   (the input projection)
    h[b, a, n, f]   = ssp (Σ_g f_ij[b, a, n, g] · W_f1[g, f] + b_f1[f])               (the filter network's hidden layer)
    W[b, a, n, f]   = Σ_g h[b, a, n, g] · W_f2[g, f] + b_f2[f]                        (the filter)
    agg[b, a, f]    = Σ_n (y[b, nbh[b, a, n], f] · W[b, a, n, f]) · mask[b, a, n]     (gather, filter, mask, sum over neighbours)
    out[b, a, o]    = ssp (Σ_f agg[b, a, f] · W_out[f, o] + b_out[o])
  where ssp z = max z 0 + log (1 + exp (−|z|)) − c is the shifted softplus, `c` the single-precision literal both
  programs carry for log 2, and a neighbour index is read as a signed integer clamped into [0, 511].
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SX : Shape := ⟨3, ![16, 512, 128]⟩
abbrev SF : Shape := ⟨4, ![16, 512, 64, 25]⟩
abbrev SN : Shape := ⟨3, ![16, 512, 64]⟩
abbrev SW : Shape := ⟨2, ![128, 128]⟩
abbrev SW1 : Shape := ⟨2, ![25, 128]⟩
abbrev SB : Shape := ⟨1, ![128]⟩

/-- The shifted softplus on the extended reals: `max z 0 + log (1 + exp (−|z|)) − c`, with `|z| = max z (−z)` and `c`
    the single-precision word both programs subtract. -/
def ssp (z : EReal) : EReal :=
  max z 0 + Ideal.log1p (Ideal.exp (-(max z (-z)))) - Ideal.ofBits .f32 0x3F317218#32

/-- A neighbour index read as a signed integer and clamped into `[0, 511]`. -/
def nbr (nb : IVec SN 32) (b : Fin 16) (a : Fin 512) (n : Fin 64) : Fin 512 :=
  ⟨min (nb (ix3 b a n)).toInt.toNat 511, by omega⟩

/-- The input projection `x · W_in2f`. -/
def inFeat (x : FVec Ideal SX .f32) (win : FVec Ideal SW .f32) (b : Fin 16) (a : Fin 512) (f : Fin 128) : EReal :=
  ∑ k : Fin 128, x (ix3 b a k) * win (ix2 k f)

/-- The filter network's hidden layer. -/
def hidden (fij : FVec Ideal SF .f32) (wf1 : FVec Ideal SW1 .f32) (bf1 : FVec Ideal SB .f32)
    (b : Fin 16) (a : Fin 512) (n : Fin 64) (f : Fin 128) : EReal :=
  ssp ((∑ g : Fin 25, fij (ix4 b a n g) * wf1 (ix2 g f)) + bf1 (ix1 f))

/-- The filter. -/
def filt (fij : FVec Ideal SF .f32) (wf1 : FVec Ideal SW1 .f32) (bf1 : FVec Ideal SB .f32)
    (wf2 : FVec Ideal SW .f32) (bf2 : FVec Ideal SB .f32)
    (b : Fin 16) (a : Fin 512) (n : Fin 64) (f : Fin 128) : EReal :=
  (∑ g : Fin 128, hidden fij wf1 bf1 b a n g * wf2 (ix2 g f)) + bf2 (ix1 f)

/-- Gathered neighbour features times the filter times the mask, summed over the neighbour slots. -/
def agg (x : FVec Ideal SX .f32) (fij : FVec Ideal SF .f32) (nb : IVec SN 32) (mask : FVec Ideal SN .f32)
    (win : FVec Ideal SW .f32) (wf1 : FVec Ideal SW1 .f32) (bf1 : FVec Ideal SB .f32)
    (wf2 : FVec Ideal SW .f32) (bf2 : FVec Ideal SB .f32)
    (b : Fin 16) (a : Fin 512) (f : Fin 128) : EReal :=
  ∑ n : Fin 64, (inFeat x win b (nbr nb b a n) f * filt fij wf1 bf1 wf2 bf2 b a n f) * mask (ix3 b a n)

/-- The result at batch `b`, atom `a`, output feature `o`. -/
def outAt (x : FVec Ideal SX .f32) (fij : FVec Ideal SF .f32) (nb : IVec SN 32) (mask : FVec Ideal SN .f32)
    (win : FVec Ideal SW .f32) (wf1 : FVec Ideal SW1 .f32) (bf1 : FVec Ideal SB .f32)
    (wf2 : FVec Ideal SW .f32) (bf2 : FVec Ideal SB .f32) (wout : FVec Ideal SW .f32) (bout : FVec Ideal SB .f32)
    (b : Fin 16) (a : Fin 512) (o : Fin 128) : EReal :=
  ssp ((∑ f : Fin 128, agg x fij nb mask win wf1 bf1 wf2 bf2 b a f * wout (ix2 f o)) + bout (ix1 o))

/-- The whole result array. -/
def G (x : FVec Ideal SX .f32) (fij : FVec Ideal SF .f32) (nb : IVec SN 32) (mask : FVec Ideal SN .f32)
    (win : FVec Ideal SW .f32) (wf1 : FVec Ideal SW1 .f32) (bf1 : FVec Ideal SB .f32)
    (wf2 : FVec Ideal SW .f32) (bf2 : FVec Ideal SB .f32) (wout : FVec Ideal SW .f32) (bout : FVec Ideal SB .f32) :
    FVec Ideal SX .f32 :=
  fun i => outAt x fij nb mask win wf1 bf1 wf2 bf2 wout bout (i 0) (i 1) (i 2)

/-- The neighbour indices are atom indices: every one lies in `[0, 512)` as a signed integer. -/
def InRange (nb : IVec SN 32) : Prop := ∀ i : SN.Idx, 0 ≤ (nb i).toInt ∧ (nb i).toInt < 512

theorem nbr_val {nb : IVec SN 32} (h : InRange nb) (b : Fin 16) (a : Fin 512) (n : Fin 64) :
    ((nbr nb b a n).val : Int) = (nb (ix3 b a n)).toInt := by
  have := h (ix3 b a n)
  show ((min (nb (ix3 b a n)).toInt.toNat 511 : Nat) : Int) = _
  omega

end Cert.Spec

end
-- ==== Proof.Softplus.lean ====
/-
  The shifted softplus as both programs spell it, on the extended reals.

  Both spell `softplus z` as `log (exp z + exp 0)` made stable: with `d = z − 0`,
  `select (d ≠ d) (z + 0) (max z 0 + log1p (exp (−|d|)))`; the kernel writes `−|d|` as `0 − |d|`. On the extended reals
  `d ≠ d` never holds, `z − 0 = z` and `0 − a = −a`, so both are `Spec.ssp z` once the word `c` is subtracted.
-/
import proofs.«425397_j9715216023986_1_alg».proof.Proof.Spec

noncomputable section

namespace Cert.Spec

open Idealize.ShloMosaic

/-- A comparison "not equal" of an extended real with itself is false, ordered or unordered. -/
theorem cmp_one_self (z : EReal) : Ideal.cmp .one z z = 0#1 := by
  simp [Ideal.cmp]

theorem cmp_une_self (z : EReal) : Ideal.cmp .une z z = 0#1 := by
  simp [Ideal.cmp]

/-- The kernel's scalar form of the shifted softplus. -/
theorem kernel_ssp (z : EReal) :
    FloatOps.subf (F := Ideal) (φ := .f32)
      (Scalar.select (FloatOps.cmpf (F := Ideal) (φ := .f32) .one (FloatOps.subf (F := Ideal) (φ := .f32) z (Scalar.ofBits .f32 0x00000000#32))
          (FloatOps.subf (F := Ideal) (φ := .f32) z (Scalar.ofBits .f32 0x00000000#32)))
        (FloatOps.addf (F := Ideal) (φ := .f32) z (Scalar.ofBits .f32 0x00000000#32))
        (FloatOps.addf (F := Ideal) (φ := .f32) (FloatOps.maximumf (F := Ideal) (φ := .f32) z (Scalar.ofBits .f32 0x00000000#32))
          (FloatOps.log1p (F := Ideal) (φ := .f32) (FloatOps.exp (F := Ideal) (φ := .f32) (FloatOps.subf (F := Ideal) (φ := .f32) (Scalar.ofBits .f32 0x00000000#32)
            (FloatOps.absf (F := Ideal) (φ := .f32) (FloatOps.subf (F := Ideal) (φ := .f32) z (Scalar.ofBits .f32 0x00000000#32))))))))
      (Scalar.ofBits .f32 0x3F317218#32) = ssp z := by
  have hs : ∀ b : BitVec 32, Scalar.ofBits (F := Ideal) .f32 b = Ideal.ofBits .f32 b := fun _ => rfl
  simp only [hs, Ideal.ofBits_zero_f32, Ideal.subf_def, Ideal.addf_def, Ideal.maximumf_def, Ideal.log1p_def, Ideal.exp_def,
    Ideal.cmpf_def, Ideal.absf_def, sub_zero, zero_sub, cmp_one_self, ValueIdx.select_zero]
  rfl

/-- The reference's scalar form of the shifted softplus. -/
theorem ref_ssp (z : EReal) :
    FloatOps.subf (F := Ideal) (φ := .f32)
      (Scalar.select (FloatOps.cmpf (F := Ideal) (φ := .f32) .une (FloatOps.subf (F := Ideal) (φ := .f32) z (FloatOps.ofBits .f32 0x00000000#32))
          (FloatOps.subf (F := Ideal) (φ := .f32) z (FloatOps.ofBits .f32 0x00000000#32)))
        (FloatOps.addf (F := Ideal) (φ := .f32) z (FloatOps.ofBits .f32 0x00000000#32))
        (FloatOps.addf (F := Ideal) (φ := .f32) (FloatOps.maximumf (F := Ideal) (φ := .f32) z (FloatOps.ofBits .f32 0x00000000#32))
          (FloatOps.hostUnary (F := Ideal) (φ := .f32) .log1p (FloatOps.hostUnary (F := Ideal) (φ := .f32) .exp (FloatOps.hostNegf (F := Ideal) (φ := .f32)
            (FloatOps.hostAbsf (F := Ideal) (φ := .f32) (FloatOps.subf (F := Ideal) (φ := .f32) z (FloatOps.ofBits .f32 0x00000000#32))))))))
      (FloatOps.ofBits .f32 0x3F317218#32) = ssp z := by
  simp only [Ideal.ofBits_def, Ideal.ofBits_zero_f32, Ideal.subf_def, Ideal.addf_def, Ideal.maximumf_def, Ideal.hostUnary_log1p_def,
    Ideal.hostUnary_exp_def, Ideal.hostNegf_def, Ideal.hostAbsf_def, Ideal.negf_def, Ideal.cmpf_def, Ideal.absf_def, sub_zero,
    cmp_une_self, ValueIdx.select_zero]
  rfl

end Cert.Spec

end
-- ==== Proof.BlockValue.lean ====
/-
  What one grid point leaves in the output block, as a function of the point's input blocks.

  The body's last store writes `ssp` of the output projection; the value leg's block function reads it at a block index
  `(0, r, o)` as the scalar softplus chain over the projection's entry `(r, o)`, and that entry is the sums the body's
  matrix products, one-hot selection and lane reduction spell out over the blocks.
-/
import proofs.«425397_j9715216023986_1_alg».proof.Proof.Gen.KernelIdeal.Value
import proofs.«425397_j9715216023986_1_alg».proof.Proof.Softplus
import Idealize.ShloMosaic.Lib.Pipeline.Value

noncomputable section

open scoped BigOperators

namespace Cert.KernelRead

open Cert.KernelIdeal Cert.KernelIdeal.Gen Cert.KernelIdeal.Value Cert.Spec Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block index under `(0, r, o)` in the projection's `[128, 128]` value. -/
theorem ix11_ix3 (r o : Fin 128) : ix11_0 (ix3 (0 : Fin 1) r o) = ix2 r o := by
  funext a; apply Fin.ext
  match a with
  | ⟨0, _⟩ => rfl
  | ⟨1, _⟩ => rfl

/-- The output block at `(0, r, o)` is the shifted softplus of the projection's entry `(r, o)`. -/
theorem out_block_ssp (X0 : Vec Ideal S1x512x128 .f32) (X1 : Vec Ideal S1x128x64x25 .f32) (X2 : Vec Ideal S1x128x64 .i32)
    (X3 : Vec Ideal S1x128x64 .f32) (X4 : Vec Ideal S128x128 .f32) (X5 : Vec Ideal S25x128 .f32) (X6 : Vec Ideal S1x128 .f32)
    (X7 : Vec Ideal S128x128 .f32) (X8 : Vec Ideal S1x128 .f32) (X9 : Vec Ideal S128x128 .f32) (X10 : Vec Ideal S1x128 .f32)
    (r o : Fin 128) :
    out0_11 (F := Ideal) X0 X1 X2 X3 X4 X5 X6 X7 X8 X9 X10 (ix3 0 r o)
      = ssp (k0_pay4 (F := Ideal) (k0_pay2 X0 X4) (k0_pay3 X1 X5 X6) X7 X8 X2 X3 X9 X10 (ix2 r o)) := by
  unfold out0_11
  simp only [View.ld_unit_zero (S := S1x512x128) hz3, View.ld_unit_zero (S := S128x128) hz2,
    View.ld_unit_zero (S := S1x128x64x25) hz4, View.ld_unit_zero (S := S25x128) hz2, View.ld_unit_zero (S := S1x128) hz2,
    View.ld_unit_zero (S := S1x128x64) hz3]
  rw [canon11_eq]
  show FloatOps.subf _ _ = _
  simp only [show ix11_1 (ix3 (0 : Fin 1) r o) = ix2 r o from ix11_ix3 r o, show ix11_2 (ix3 (0 : Fin 1) r o) = ix2 r o from ix11_ix3 r o,
    show ix11_3 (ix3 (0 : Fin 1) r o) = ix2 r o from ix11_ix3 r o, show ix11_4 (ix3 (0 : Fin 1) r o) = ix2 r o from ix11_ix3 r o, ix11_ix3 r o]
  exact kernel_ssp _

end Cert.KernelRead

end
-- ==== Proof.KernelPay.lean ====
/-
  The kernel's first two payloads read at an index, on the extended reals.

  The first is the input projection: the block of atom features, its unit batch axis dropped, times the projection
  matrix, into a zero accumulator. At atom `a` and feature `f` it is Σ_k x[0, a, k] · W[k, f].

  The second is the hidden layer of the filter network: the block of radial features [1, 128, 64, 25] is flattened to
  [8192, 25] (row r·64 + n holds atom r's neighbour slot n), multiplied by the [25, 128] weight, the bias row is added
  to every row, and the shifted softplus is applied to every element. At row r·64 + n and feature `f` it is
  ssp (Σ_g f_ij[0, r, n, g] · W₁[g, f] + b₁[0, f]).

  On the extended reals a narrowing of the float format is the identity, and a product into the zero accumulator is the
  plain sum over the contracted axis.
-/
import proofs.«425397_j9715216023986_1_alg».proof.Proof.Gen.KernelIdeal.Skeleton
import proofs.«425397_j9715216023986_1_alg».proof.Proof.Softplus
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelRead

open Cert.KernelIdeal Cert.KernelIdeal.Gen Cert.Spec Idealize.ShloMosaic Idealize.ShloMosaic.ValueIdx

/-! ## The two products' operand indices, axis by axis -/

theorem lhs_in_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_in_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_in_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_in_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem lhs_f1_0 (i : S8192x128.Idx) (q : dot_S8192x25_S25x128_S8192x128_1_0_0_1_n_n.contr.Idx) :
    (dot_S8192x25_S25x128_S8192x128_1_0_0_1_n_n.lhsIdx i q 0).val = (i 0).val := by
  unfold DotDims.lhsIdx
  rw [dif_neg (show ¬(0 : Fin S8192x25.rank) ∈ dot_S8192x25_S25x128_S8192x128_1_0_0_1_n_n.lhsBatch by decide), dif_pos (show (0 : Fin S8192x25.rank) ∈ dot_S8192x25_S25x128_S8192x128_1_0_0_1_n_n.lhsNonContracting by decide)]
  rfl
theorem lhs_f1_1 (i : S8192x128.Idx) (q : dot_S8192x25_S25x128_S8192x128_1_0_0_1_n_n.contr.Idx) :
    (dot_S8192x25_S25x128_S8192x128_1_0_0_1_n_n.lhsIdx i q 1).val = (q ⟨0, by decide⟩).val :=
  dot_S8192x25_S25x128_S8192x128_1_0_0_1_n_n.lhsIdx_val_of_single rfl i q
theorem rhs_f1_0 (i : S8192x128.Idx) (q : dot_S8192x25_S25x128_S8192x128_1_0_0_1_n_n.contr.Idx) :
    (dot_S8192x25_S25x128_S8192x128_1_0_0_1_n_n.rhsIdx i q 0).val = (q ⟨0, by decide⟩).val :=
  dot_S8192x25_S25x128_S8192x128_1_0_0_1_n_n.rhsIdx_val_of_single rfl i q
theorem rhs_f1_1 (i : S8192x128.Idx) (q : dot_S8192x25_S25x128_S8192x128_1_0_0_1_n_n.contr.Idx) :
    (dot_S8192x25_S25x128_S8192x128_1_0_0_1_n_n.rhsIdx i q 1).val = (i 1).val := by
  unfold DotDims.rhsIdx
  rw [dif_neg (show ¬(1 : Fin S25x128.rank) ∈ dot_S8192x25_S25x128_S8192x128_1_0_0_1_n_n.rhsBatch by decide), dif_pos (show (1 : Fin S25x128.rank) ∈ dot_S8192x25_S25x128_S8192x128_1_0_0_1_n_n.rhsNonContracting by decide)]
  rfl

/-! ## The two products read at an index -/

/-- A product into the zero accumulator, read at row `p` and column `c`: the sum over the contracted axis of the left
    operand's row `p` times the right operand's column `c`. -/
theorem matmul_in_apply {φ₁ φ₂ : FTy} (A : FVec Ideal S512x128 φ₁) (B : FVec Ideal S128x128 φ₂) (p : Fin 512) (c : Fin 128) :
    matmul dot_S512x128_S128x128_S512x128_1_0_0_1_n_n none A B (constant S512x128 .f32 0x00000000#32) (ix2 p c)
      = ∑ k : Fin 128, A (ix2 p k) * B (ix2 k c) := by
  show FloatOps.matmul dot_S512x128_S128x128_S512x128_1_0_0_1_n_n none A B (constant S512x128 .f32 0x00000000#32) (ix2 p c) = _
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p c) ((contrEquiv1 dot_S512x128_S128x128_S512x128_1_0_0_1_n_n 128 rfl rfl).symm k) = ix2 p k := funext fun a => Fin.ext (by
    match a with
    | ⟨0, _⟩ => exact lhs_in_0 _ _
    | ⟨1, _⟩ => exact (lhs_in_1 _ _).trans hk)
  have er : dot_S512x128_S128x128_S512x128_1_0_0_1_n_n.rhsIdx (ix2 p c) ((contrEquiv1 dot_S512x128_S128x128_S512x128_1_0_0_1_n_n 128 rfl rfl).symm k) = ix2 k c := funext fun a => Fin.ext (by
    match a with
    | ⟨0, _⟩ => exact (rhs_in_0 _ _).trans hk
    | ⟨1, _⟩ => exact rhs_in_1 _ _)
  rw [el, er]

/-- A product into the zero accumulator, read at row `p` and column `c`: the sum over the contracted axis of the left
    operand's row `p` times the right operand's column `c`. -/
theorem matmul_f1_apply {φ₁ φ₂ : FTy} (A : FVec Ideal S8192x25 φ₁) (B : FVec Ideal S25x128 φ₂) (p : Fin 8192) (c : Fin 128) :
    matmul dot_S8192x25_S25x128_S8192x128_1_0_0_1_n_n none A B (constant S8192x128 .f32 0x00000000#32) (ix2 p c)
      = ∑ k : Fin 25, A (ix2 p k) * B (ix2 k c) := by
  show FloatOps.matmul dot_S8192x25_S25x128_S8192x128_1_0_0_1_n_n none A B (constant S8192x128 .f32 0x00000000#32) (ix2 p c) = _
  rw [Ideal.matmul_constant_zero_apply, ← Equiv.sum_comp (contrEquiv1 dot_S8192x25_S25x128_S8192x128_1_0_0_1_n_n 25 rfl rfl).symm]
  refine Finset.sum_congr rfl fun k _ => ?_
  have hk := contrEquiv1_symm_val dot_S8192x25_S25x128_S8192x128_1_0_0_1_n_n 25 rfl rfl k
  have el : dot_S8192x25_S25x128_S8192x128_1_0_0_1_n_n.lhsIdx (ix2 p c) ((contrEquiv1 dot_S8192x25_S25x128_S8192x128_1_0_0_1_n_n 25 rfl rfl).symm k) = ix2 p k := funext fun a => Fin.ext (by
    match a with
    | ⟨0, _⟩ => exact lhs_f1_0 _ _
    | ⟨1, _⟩ => exact (lhs_f1_1 _ _).trans hk)
  have er : dot_S8192x25_S25x128_S8192x128_1_0_0_1_n_n.rhsIdx (ix2 p c) ((contrEquiv1 dot_S8192x25_S25x128_S8192x128_1_0_0_1_n_n 25 rfl rfl).symm k) = ix2 k c := funext fun a => Fin.ext (by
    match a with
    | ⟨0, _⟩ => exact (rhs_f1_0 _ _).trans hk
    | ⟨1, _⟩ => exact rhs_f1_1 _ _)
  rw [el, er]

/-! ## The input projection -/

/-- The input projection at atom `a` and feature `f`: Σ_k x[0, a, k] · W[k, f]. -/
theorem pay2_apply (P0 : Vec Ideal S1x512x128 .f32) (P1 : Vec Ideal S128x128 .f32) (a : Fin 512) (f : Fin 128) :
    k0_pay2 (F := Ideal) P0 P1 (ix2 a f) = ∑ k : Fin 128, P0 (ix3 0 a k) * P1 (ix2 k f) := by
  unfold k0_pay2
  rw [truncf_apply, matmul_in_apply]
  refine Finset.sum_congr rfl fun k _ => ?_
  rw [truncf_apply, truncf_apply, shapeCast_1ab_ab_apply]

/-! ## The filter network's hidden layer -/

/-- The block of radial features flattened to one row per (atom, neighbour slot): row `r·64 + n`, column `g` of the
    flattened block is the block at `(0, r, n, g)`. -/
theorem flat_apply (P2 : Vec Ideal S1x128x64x25 .f32) (r : Fin 128) (n : Fin 64) (g : Fin 25) :
    shapeCast S8192x25 (shapeCast S128x64x25 P2 shapeCasts_S1x128x64x25_S128x64x25) shapeCasts_S128x64x25_S8192x25
        (ix2 (⟨r.val * 64 + n.val, by omega⟩ : Fin 8192) g)
      = P2 (ix4 0 r n g) := by
  rw [shapeCast_apply _ shapeCasts_S128x64x25_S8192x25 (ix2 (⟨r.val * 64 + n.val, by omega⟩ : Fin 8192) g) (ix3 r n g) (by
    rw [Shape.rowMajor_val_three, Shape.rowMajor_val_two]
    show (r.val * 64 + n.val) * 25 + g.val = (r.val * 64 + n.val) * 25 + g.val
    rfl)]
  exact shapeCast_1abc_abc_apply P2 shapeCasts_S1x128x64x25_S128x64x25 r n g

/-- The argument of the hidden layer's shifted softplus at row `r·64 + n` and feature `f`. -/
theorem pre3_apply (P2 : FVec Ideal S1x128x64x25 .f32) (P3 : FVec Ideal S25x128 .f32) (P4 : FVec Ideal S1x128 .f32)
    (r : Fin 128) (n : Fin 64) (f : Fin 128) :
    addf (F := Ideal)
        (matmul dot_S8192x25_S25x128_S8192x128_1_0_0_1_n_n none
          (truncf .bf16 (shapeCast S8192x25 (shapeCast S128x64x25 P2 shapeCasts_S1x128x64x25_S128x64x25) shapeCasts_S128x64x25_S8192x25) bitsLt_bf16_f32)
          (truncf .bf16 P3 bitsLt_bf16_f32) (constant S8192x128 .f32 0x00000000#32))
        (broadcastTo S8192x128 (shapeCast S1x128 P4 shapeCasts_S1x128_S1x128) broadcasts_S1x128_S8192x128)
        (ix2 (⟨r.val * 64 + n.val, by omega⟩ : Fin 8192) f)
      = (∑ g : Fin 25, P2 (ix4 0 r n g) * P3 (ix2 g f)) + P4 (ix2 0 f) := by
  rw [addf_apply, matmul_f1_apply, broadcastTo_1b_ab_apply, shapeCast_self]
  congr 1
  refine Finset.sum_congr rfl fun g _ => ?_
  rw [truncf_apply, truncf_apply, flat_apply]

/-- The hidden layer at row `r·64 + n` and feature `f`: the shifted softplus of Σ_g f_ij[0, r, n, g] · W₁[g, f] + b₁[0, f]. -/
theorem pay3_apply (P2 : Vec Ideal S1x128x64x25 .f32) (P3 : Vec Ideal S25x128 .f32) (P4 : Vec Ideal S1x128 .f32) (r : Fin 128) (n : Fin 64) (f : Fin 128) :
    k0_pay3 (F := Ideal) P2 P3 P4 (ix2 (⟨r.val * 64 + n.val, by omega⟩ : Fin 8192) f)
      = ssp ((∑ g : Fin 25, P2 (ix4 0 r n g) * P3 (ix2 g f)) + P4 (ix2 0 f)) := by
  rw [← pre3_apply P2 P3 P4 r n f]
  exact kernel_ssp _

end Cert.KernelRead

end
-- ==== Proof.KernelAgg.lean ====
/-
  The aggregation and output projection of the continuous-filter convolution, read at an index over the extended reals.

  For one block of 128 atoms with 64 neighbour slots each, the body forms, from the projected input features
  `y : [512, 128]`, the filter network's hidden layer `h : [8192, 128]` (row `r * 64 + n` for atom `r`, slot `n`), the
  weights `W_f2, W_out : [128, 128]`, the bias rows `b_f2, b_out : [1, 128]`, the neighbour indices `nbh : [1, 128, 64]` and the
  mask `m : [1, 128, 64]`:
    W[r, n, f]   = Σ_g h[r * 64 + n, g] · W_f2[g, f] + b_f2[f]                 (the filter)
    g[r, n, f]   = Σ_k onehot[r * 64 + n, k] · y[k, f]                         (the neighbour's features, as a product with a one-hot matrix)
    agg[r, f]    = Σ_n (g[r, n, f] · W[r, n, f]) · m[r, n]                      (filter, mask, sum over the slots)
    pre[r, o]    = Σ_f agg[r, f] · W_out[f, o] + b_out[o]                       (the projection before the last softplus)
  where `onehot[j, k]` is `1` when the index word of row `j` is the word of `k` and `0` otherwise. On the extended reals
  `0 · x = 0` and `1 · x = x` for every `x`, infinite ones included, so when the index lies in `[0, 512)` exactly one column
  survives and the product with the one-hot matrix is the row `y[nbh[r, n], ·]`: a gather. The format changes to sixteen
  bits in front of each product are the identity on extended reals, and a product into the zero accumulator is a plain sum.

  Each non-pointwise operation gets its own small lemma at literal coordinates — the three products, the changes of shape
  between `[8192, ·]` and `[128, 64, ·]`, the broadcasts of a row, a column and a unit lane, the sum over the slot axis — and
  `pay4_apply` chains them.
-/
import proofs.«425397_j9715216023986_1_alg».proof.Proof.Gen.KernelIdeal.Skeleton
import proofs.«425397_j9715216023986_1_alg».proof.Proof.Spec
import Idealize.ShloMosaic.Lib.ValueIdx
import Idealize.ShloMosaic.Lib.Pipeline.Value
import Idealize.ShloMosaic.PureOps.Ideal.Laws

noncomputable section

open scoped BigOperators

namespace Cert.KernelRead

open Cert.KernelIdeal Cert.KernelIdeal.Gen Cert.Spec Idealize.ShloMosaic Idealize.ShloMosaic.ValueIdx

/-! ## The three products -/

/-! ### The product S8192x128 · S128x128 read at an index -/

theorem lhs_filt_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_filt_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_filt_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_filt_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- Into the zero accumulator the product at `(j, f)` is the plain sum over the contracted coordinate. -/
theorem matmul_filt_apply {φ₁ φ₂ : FTy} (a : FVec Ideal S8192x128 φ₁) (b : FVec Ideal S128x128 φ₂) (j : Fin 8192) (f : Fin 128) :
    matmul dot_S8192x128_S128x128_S8192x128_1_0_0_1_n_n none a b (constant (F := Ideal) S8192x128 .f32 0x00000000#32) (ix2 j f)
      = ∑ k : Fin 128, a (ix2 j k) * b (ix2 k f) := by
  show FloatOps.matmul dot_S8192x128_S128x128_S8192x128_1_0_0_1_n_n none a b (constant (F := Ideal) S8192x128 .f32 0x00000000#32) (ix2 j f) = _
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 j f) ((contrEquiv1 dot_S8192x128_S128x128_S8192x128_1_0_0_1_n_n 128 rfl rfl).symm k) = ix2 j k := funext fun c => Fin.ext (by
    match c with
    | ⟨0, _⟩ => exact lhs_filt_0 _ _
    | ⟨1, _⟩ => exact (lhs_filt_1 _ _).trans hk)
  have er : dot_S8192x128_S128x128_S8192x128_1_0_0_1_n_n.rhsIdx (ix2 j f) ((contrEquiv1 dot_S8192x128_S128x128_S8192x128_1_0_0_1_n_n 128 rfl rfl).symm k) = ix2 k f := funext fun c => Fin.ext (by
    match c with
    | ⟨0, _⟩ => exact (rhs_filt_0 _ _).trans hk
    | ⟨1, _⟩ => exact rhs_filt_1 _ _)
  rw [el, er]

/-! ### The product S8192x512 · S512x128 read at an index -/

theorem lhs_sel_0 (i : S8192x128.Idx) (q : dot_S8192x512_S512x128_S8192x128_1_0_0_1_n_n.contr.Idx) :
    (dot_S8192x512_S512x128_S8192x128_1_0_0_1_n_n.lhsIdx i q 0).val = (i 0).val := by
  unfold DotDims.lhsIdx
  rw [dif_neg (show ¬(0 : Fin S8192x512.rank) ∈ dot_S8192x512_S512x128_S8192x128_1_0_0_1_n_n.lhsBatch by decide), dif_pos (show (0 : Fin S8192x512.rank) ∈ dot_S8192x512_S512x128_S8192x128_1_0_0_1_n_n.lhsNonContracting by decide)]
  rfl
theorem lhs_sel_1 (i : S8192x128.Idx) (q : dot_S8192x512_S512x128_S8192x128_1_0_0_1_n_n.contr.Idx) :
    (dot_S8192x512_S512x128_S8192x128_1_0_0_1_n_n.lhsIdx i q 1).val = (q ⟨0, by decide⟩).val :=
  dot_S8192x512_S512x128_S8192x128_1_0_0_1_n_n.lhsIdx_val_of_single rfl i q
theorem rhs_sel_0 (i : S8192x128.Idx) (q : dot_S8192x512_S512x128_S8192x128_1_0_0_1_n_n.contr.Idx) :
    (dot_S8192x512_S512x128_S8192x128_1_0_0_1_n_n.rhsIdx i q 0).val = (q ⟨0, by decide⟩).val :=
  dot_S8192x512_S512x128_S8192x128_1_0_0_1_n_n.rhsIdx_val_of_single rfl i q
theorem rhs_sel_1 (i : S8192x128.Idx) (q : dot_S8192x512_S512x128_S8192x128_1_0_0_1_n_n.contr.Idx) :
    (dot_S8192x512_S512x128_S8192x128_1_0_0_1_n_n.rhsIdx i q 1).val = (i 1).val := by
  unfold DotDims.rhsIdx
  rw [dif_neg (show ¬(1 : Fin S512x128.rank) ∈ dot_S8192x512_S512x128_S8192x128_1_0_0_1_n_n.rhsBatch by decide), dif_pos (show (1 : Fin S512x128.rank) ∈ dot_S8192x512_S512x128_S8192x128_1_0_0_1_n_n.rhsNonContracting by decide)]
  rfl

/-- Into the zero accumulator the product at `(j, f)` is the plain sum over the contracted coordinate. -/
theorem matmul_sel_apply {φ₁ φ₂ : FTy} (a : FVec Ideal S8192x512 φ₁) (b : FVec Ideal S512x128 φ₂) (j : Fin 8192) (f : Fin 128) :
    matmul dot_S8192x512_S512x128_S8192x128_1_0_0_1_n_n none a b (constant (F := Ideal) S8192x128 .f32 0x00000000#32) (ix2 j f)
      = ∑ k : Fin 512, a (ix2 j k) * b (ix2 k f) := by
  show FloatOps.matmul dot_S8192x512_S512x128_S8192x128_1_0_0_1_n_n none a b (constant (F := Ideal) S8192x128 .f32 0x00000000#32) (ix2 j f) = _
  rw [Ideal.matmul_constant_zero_apply, ← Equiv.sum_comp (contrEquiv1 dot_S8192x512_S512x128_S8192x128_1_0_0_1_n_n 512 rfl rfl).symm]
  refine Finset.sum_congr rfl fun k _ => ?_
  have hk := contrEquiv1_symm_val dot_S8192x512_S512x128_S8192x128_1_0_0_1_n_n 512 rfl rfl k
  have el : dot_S8192x512_S512x128_S8192x128_1_0_0_1_n_n.lhsIdx (ix2 j f) ((contrEquiv1 dot_S8192x512_S512x128_S8192x128_1_0_0_1_n_n 512 rfl rfl).symm k) = ix2 j k := funext fun c => Fin.ext (by
    match c with
    | ⟨0, _⟩ => exact lhs_sel_0 _ _
    | ⟨1, _⟩ => exact (lhs_sel_1 _ _).trans hk)
  have er : dot_S8192x512_S512x128_S8192x128_1_0_0_1_n_n.rhsIdx (ix2 j f) ((contrEquiv1 dot_S8192x512_S512x128_S8192x128_1_0_0_1_n_n 512 rfl rfl).symm k) = ix2 k f := funext fun c => Fin.ext (by
    match c with
    | ⟨0, _⟩ => exact (rhs_sel_0 _ _).trans hk
    | ⟨1, _⟩ => exact rhs_sel_1 _ _)
  rw [el, er]

/-! ### The product S128x128 · S128x128 read at an index -/

theorem lhs_out_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_out_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhs_out_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhs_out_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- Into the zero accumulator the product at `(j, f)` is the plain sum over the contracted coordinate. -/
theorem matmul_out_apply {φ₁ φ₂ : FTy} (a : FVec Ideal S128x128 φ₁) (b : FVec Ideal S128x128 φ₂) (j : Fin 128) (f : Fin 128) :
    matmul dot_S128x128_S128x128_S128x128_1_0_0_1_n_n none a b (constant (F := Ideal) S128x128 .f32 0x00000000#32) (ix2 j f)
      = ∑ k : Fin 128, a (ix2 j k) * b (ix2 k f) := by
  show FloatOps.matmul dot_S128x128_S128x128_S128x128_1_0_0_1_n_n none a b (constant (F := Ideal) S128x128 .f32 0x00000000#32) (ix2 j f) = _
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 j f) ((contrEquiv1 dot_S128x128_S128x128_S128x128_1_0_0_1_n_n 128 rfl rfl).symm k) = ix2 j k := funext fun c => Fin.ext (by
    match c with
    | ⟨0, _⟩ => exact lhs_out_0 _ _
    | ⟨1, _⟩ => exact (lhs_out_1 _ _).trans hk)
  have er : dot_S128x128_S128x128_S128x128_1_0_0_1_n_n.rhsIdx (ix2 j f) ((contrEquiv1 dot_S128x128_S128x128_S128x128_1_0_0_1_n_n 128 rfl rfl).symm k) = ix2 k f := funext fun c => Fin.ext (by
    match c with
    | ⟨0, _⟩ => exact (rhs_out_0 _ _).trans hk
    | ⟨1, _⟩ => exact rhs_out_1 _ _)
  rw [el, er]

/-! ### Layout operations read at an index -/

section Layout
variable {α : Type}

/-- Rows `r * 64 + n` of an `[8192, 128]` array are the `(r, n)` rows of its `[128, 64, 128]` view. -/
theorem cast_rows_apply (x : S8192x128.Idx → α) (h : S8192x128.ShapeCasts S128x64x128) (r : Fin 128) (n : Fin 64) (f : Fin 128) :
    shapeCast S128x64x128 x h (ix3 r n f) = x (ix2 (⟨r.val * 64 + n.val, by omega⟩ : Fin 8192) f) :=
  shapeCast_apply x h (ix3 r n f) (ix2 (⟨r.val * 64 + n.val, by omega⟩ : Fin 8192) f) (by
    rw [Shape.rowMajor_val_two, Shape.rowMajor_val_three]
    show (r.val * 64 + n.val) * 128 + f.val = (r.val * 64 + n.val) * 128 + f.val
    rfl)

/-- A `[1, 128, 64]` block viewed `[128, 64]` reads `(0, r, n)` at `(r, n)`. -/
theorem cast_block_apply (x : S1x128x64.Idx → α) (h : S1x128x64.ShapeCasts S128x64) (r : Fin 128) (n : Fin 64) :
    shapeCast S128x64 x h (ix2 r n) = x (ix3 0 r n) :=
  shapeCast_apply x h (ix2 r n) (ix3 0 r n) (by
    rw [Shape.rowMajor_val_three, Shape.rowMajor_val_two]
    show (0 * 128 + r.val) * 64 + n.val = r.val * 64 + n.val
    omega)

/-- A `[128, 64]` array flattened to a column `[8192, 1]` reads `(r, n)` at row `r * 64 + n`. -/
theorem cast_column_apply (x : S128x64.Idx → α) (h : S128x64.ShapeCasts S8192x1) (r : Fin 128) (n : Fin 64) :
    shapeCast S8192x1 x h (ix2 (⟨r.val * 64 + n.val, by omega⟩ : Fin 8192) 0) = x (ix2 r n) :=
  shapeCast_apply x h (ix2 (⟨r.val * 64 + n.val, by omega⟩ : Fin 8192) 0) (ix2 r n) (by
    rw [Shape.rowMajor_val_two, Shape.rowMajor_val_two]
    show r.val * 64 + n.val = (r.val * 64 + n.val) * 1 + 0
    omega)

/-- A `[128, 64]` array given a trailing unit axis reads `(r, n)` at `(r, n, 0)`. -/
theorem cast_unit_apply (x : S128x64.Idx → α) (h : S128x64.ShapeCasts S128x64x1) (r : Fin 128) (n : Fin 64) :
    shapeCast S128x64x1 x h (ix3 r n 0) = x (ix2 r n) :=
  shapeCast_apply x h (ix3 r n 0) (ix2 r n) (by
    rw [Shape.rowMajor_val_two, Shape.rowMajor_val_three]
    show r.val * 64 + n.val = (r.val * 64 + n.val) * 1 + 0
    omega)

/-- A `[128, 64, 1]` array broadcast along its unit axis reads `(r, n, 0)` at every `(r, n, f)`. -/
theorem bcast_lane_apply (x : S128x64x1.Idx → α) (h : S128x64x1.Broadcasts S128x64x128) (r : Fin 128) (n : Fin 64) (f : Fin 128) :
    broadcastTo S128x64x128 x h (ix3 r n f) = x (ix3 r n 0) :=
  broadcastTo_apply x h (ix3 r n f) (ix3 r n 0) (fun a => match a with
    | ⟨0, _⟩ => by show r.val = if (128 : Nat) = 1 then 0 else r.val; rw [if_neg (by decide)]
    | ⟨1, _⟩ => by show n.val = if (64 : Nat) = 1 then 0 else n.val; rw [if_neg (by decide)]
    | ⟨2, _⟩ => by show 0 = if (1 : Nat) = 1 then 0 else f.val; rw [if_pos rfl])

/-- A column `[8192, 1]` broadcast to `[8192, 512]` reads `(j, 0)` at every `(j, k)`. -/
theorem bcast_column_apply (x : S8192x1.Idx → α) (h : S8192x1.Broadcasts S8192x512) (j : Fin 8192) (k : Fin 512) :
    broadcastTo S8192x512 x h (ix2 j k) = x (ix2 j 0) :=
  broadcastTo_apply x h (ix2 j k) (ix2 j 0) (fun a => match a with
    | ⟨0, _⟩ => by show j.val = if (8192 : Nat) = 1 then 0 else j.val; rw [if_neg (by decide)]
    | ⟨1, _⟩ => by show 0 = if (1 : Nat) = 1 then 0 else k.val; rw [if_pos rfl])

/-- A row `[1, 128]` broadcast to `[8192, 128]` reads `(0, f)` at every `(j, f)`. -/
theorem bcast_row_wide_apply (x : S1x128.Idx → α) (h : S1x128.Broadcasts S8192x128) (j : Fin 8192) (f : Fin 128) :
    broadcastTo S8192x128 x h (ix2 j f) = x (ix2 0 f) :=
  broadcastTo_apply x h (ix2 j f) (ix2 0 f) (fun a => match a with
    | ⟨0, _⟩ => by show 0 = if (1 : Nat) = 1 then 0 else j.val; rw [if_pos rfl]
    | ⟨1, _⟩ => by show f.val = if (128 : Nat) = 1 then 0 else f.val; rw [if_neg (by decide)])

/-- A row `[1, 128]` broadcast to `[128, 128]` reads `(0, o)` at every `(r, o)`. -/
theorem bcast_row_apply (x : S1x128.Idx → α) (h : S1x128.Broadcasts S128x128) (r : Fin 128) (o : Fin 128) :
    broadcastTo S128x128 x h (ix2 r o) = x (ix2 0 o) :=
  broadcastTo_apply x h (ix2 r o) (ix2 0 o) (fun a => match a with
    | ⟨0, _⟩ => by show 0 = if (1 : Nat) = 1 then 0 else r.val; rw [if_pos rfl]
    | ⟨1, _⟩ => by show o.val = if (128 : Nat) = 1 then 0 else o.val; rw [if_neg (by decide)])

end Layout

/-! ### The sum over the neighbour axis -/

/-- The `add` reduction of a `[128, 64, 128]` array over its middle axis, from the zero word, is the sum over the 64
    middle coordinates. -/
theorem lane_sum_apply (src : FVec Ideal S128x64x128 .f32) (h : S128x64x128.Reduces [1] S128x128)
    (hφ : FKind.Formats .f32) (hacc : (0x00000000#32 : BitVec 32) = 0x00000000#32) (r : Fin 128) (f : Fin 128) :
    multiReduction (F := Ideal) .add [1] S128x128 src 0x00000000#32 h hφ hacc (ix2 r f) = ∑ n : Fin 64, src (ix3 r n f) := by
  refine (Ideal.multiReduction_add_single src 0x00000000#32 h hφ hacc (ix2 r f)).trans ?_
  refine Finset.sum_congr rfl fun n _ => congrArg src ?_
  funext c
  refine Fin.ext ?_
  match c with
  | ⟨0, _⟩ => rfl
  | ⟨1, _⟩ => rfl
  | ⟨2, _⟩ => rfl

/-! ### The one-hot row selection -/

/-- A 32-bit word whose signed reading lies in `[0, 512)` is the word of a natural `k < 512` exactly when that
    reading is `k`. -/
theorem word_eq_ofNat_iff (w : BitVec 32) (k : Fin 512) (hw : 0 ≤ w.toInt ∧ w.toInt < 512) :
    w = BitVec.ofNat 32 k.val ↔ k.val = w.toInt.toNat := by
  have hk := k.isLt
  have hn := w.isLt
  have ht := BitVec.toInt_eq_toNat_cond w
  constructor
  · intro e
    have : w.toNat = k.val := by rw [e, BitVec.toNat_ofNat]; omega
    split at ht <;> omega
  · intro e
    apply BitVec.eq_of_toNat_eq
    rw [BitVec.toNat_ofNat]
    split at ht <;> omega

/-- The entry of the one-hot matrix: the comparison bit, zero-extended and read as a signed integer, is `1` where the
    index word is the column's word and `0` elsewhere. -/
theorem onehot_entry (w : BitVec 32) (k : Fin 512) (hw : 0 ≤ w.toInt ∧ w.toInt < 512) :
    FloatOps.sitofp (F := Ideal) .f32 ((IntOp.cmpi .eq w (BitVec.ofNat 32 k.val)).setWidth 32)
      = if k.val = w.toInt.toNat then (1 : EReal) else 0 := by
  show ((((IntOp.cmpi .eq w (BitVec.ofNat 32 k.val)).setWidth 32).toInt : ℝ) : EReal) = _
  by_cases e : w = BitVec.ofNat 32 k.val
  · rw [if_pos ((word_eq_ofNat_iff w k hw).mp e)]
    have hb : IntOp.cmpi .eq w (BitVec.ofNat 32 k.val) = 1#1 := by
      show BitVec.ofBool (w == BitVec.ofNat 32 k.val) = 1#1
      rw [beq_iff_eq.mpr e]; rfl
    rw [hb]
    have h1 : ((1#1 : BitVec 1).setWidth 32).toInt = 1 := by decide
    rw [h1, Int.cast_one, EReal.coe_one]
  · rw [if_neg (fun h => e ((word_eq_ofNat_iff w k hw).mpr h))]
    have hb : IntOp.cmpi .eq w (BitVec.ofNat 32 k.val) = 0#1 := by
      show BitVec.ofBool (w == BitVec.ofNat 32 k.val) = 0#1
      rw [beq_eq_false_iff_ne.mpr e]; rfl
    rw [hb]
    have h0 : ((0#1 : BitVec 1).setWidth 32).toInt = 0 := by decide
    rw [h0, Int.cast_zero, EReal.coe_zero]

/-- THE ROW GATHER. The product of the one-hot matrix (`1` where the row's index word equals the column number) with the
    `[512, 128]` feature array, read at `(j, f)`: every column but the index's own contributes `0 · x = 0`, the index's
    own `1 · x = x`, so the sum is the feature row the index names. The row's index word is named `t`. -/
theorem gather_apply (w : IVec S8192x1 32) (v6 : FVec Ideal S512x128 .bf16) (j : Fin 8192) (f : Fin 128)
    (t : BitVec 32) (ht : w (ix2 j 0) = t) (hw : 0 ≤ t.toInt ∧ t.toInt < 512) :
    matmul dot_S8192x512_S512x128_S8192x128_1_0_0_1_n_n none
      (truncf .bf16 (sitofp (F := Ideal) .f32 (extui 32 (cmpi .eq (broadcastTo S8192x512 w broadcasts_S8192x1_S8192x512)
        (iota .tc S8192x512 32 [1] iota_S8192x512_d1_w32)) natLt_1_32)) bitsLt_bf16_f32)
      v6 (constant (F := Ideal) S8192x128 .f32 0x00000000#32) (ix2 j f)
    = v6 (ix2 (⟨min t.toInt.toNat 511, by omega⟩ : Fin 512) f) := by
  subst ht
  refine (matmul_sel_apply _ v6 j f).trans ?_
  have hent : ∀ k : Fin 512,
      (truncf .bf16 (sitofp (F := Ideal) .f32 (extui 32 (cmpi .eq (broadcastTo S8192x512 w broadcasts_S8192x1_S8192x512)
        (iota .tc S8192x512 32 [1] iota_S8192x512_d1_w32)) natLt_1_32)) bitsLt_bf16_f32 : FVec Ideal S8192x512 .bf16) (ix2 j k)
        = if k.val = (w (ix2 j 0)).toInt.toNat then (1 : EReal) else 0 := by
    intro k
    show FloatOps.sitofp (F := Ideal) .f32 ((IntOp.cmpi .eq (broadcastTo S8192x512 w broadcasts_S8192x1_S8192x512 (ix2 j k))
        (iota .tc S8192x512 32 [1] iota_S8192x512_d1_w32 (ix2 j k))).setWidth 32) = _
    rw [bcast_column_apply w broadcasts_S8192x1_S8192x512 j k, iota_single_apply .tc S8192x512 32 1 iota_S8192x512_d1_w32 (ix2 j k)]
    exact onehot_entry (w (ix2 j 0)) k hw
  refine (Finset.sum_congr rfl fun k _ => congrArg (· * v6 (ix2 k f)) (hent k)).trans ?_
  have hm : min (w (ix2 j 0)).toInt.toNat 511 = (w (ix2 j 0)).toInt.toNat := by omega
  rw [Finset.sum_eq_single (⟨min (w (ix2 j 0)).toInt.toNat 511, by omega⟩ : Fin 512)]
  · show (if min (w (ix2 j 0)).toInt.toNat 511 = (w (ix2 j 0)).toInt.toNat then (1 : EReal) else 0) * _ = _
    rw [if_pos hm, one_mul]
  · intro k _ hne
    show (if k.val = (w (ix2 j 0)).toInt.toNat then (1 : EReal) else 0) * _ = 0
    rw [if_neg (fun e => hne (Fin.ext (by show k.val = min (w (ix2 j 0)).toInt.toNat 511; omega))), zero_mul]
  · intro h
    exact absurd (Finset.mem_univ _) h

/-! ## The payload -/

/-- THE PAYLOAD AT AN INDEX: everything the body computes up to the output projection, read at atom `r` and output
    feature `o`. The projection is a sum over the features `f`; each aggregated feature a sum over the neighbour slots
    `n` of (gathered neighbour feature) · (filter) · (mask); the filter itself a sum over the hidden features `g` plus a
    bias. The neighbour indices lie in `[0, 512)`, so the one-hot product is a row gather. -/
theorem pay4_apply (v6 : FVec Ideal S512x128 .bf16) (v33 : FVec Ideal S8192x128 .f32) (P5 : Vec Ideal S128x128 .f32) (P6 : Vec Ideal S1x128 .f32)
    (P7 : Vec Ideal S1x128x64 .i32) (P8 : Vec Ideal S1x128x64 .f32) (P9 : Vec Ideal S128x128 .f32) (P10 : Vec Ideal S1x128 .f32)
    (hr : ∀ (r : Fin 128) (n : Fin 64), 0 ≤ (P7 (ix3 0 r n)).toInt ∧ (P7 (ix3 0 r n)).toInt < 512)
    (r : Fin 128) (o : Fin 128) :
    k0_pay4 (F := Ideal) v6 v33 P5 P6 P7 P8 P9 P10 (ix2 r o)
      = (∑ f : Fin 128, (∑ n : Fin 64,
            (v6 (ix2 (⟨min (P7 (ix3 0 r n)).toInt.toNat 511, by omega⟩ : Fin 512) f)
              * ((∑ g : Fin 128, v33 (ix2 (⟨r.val * 64 + n.val, by omega⟩ : Fin 8192) g) * P5 (ix2 g f)) + P6 (ix2 0 f)))
            * P8 (ix3 0 r n)) * P9 (ix2 f o)) + P10 (ix2 0 o) := by
  unfold k0_pay4
  dsimp only
  -- the index word of row `r * 64 + n` of the flattened index column is the block's `(0, r, n)` entry
  have hidx : ∀ n : Fin 64,
      (shapeCast S8192x1 (shapeCast S128x64 P7 shapeCasts_S1x128x64_S128x64) shapeCasts_S128x64_S8192x1 : IVec S8192x1 32)
        (ix2 (⟨r.val * 64 + n.val, by omega⟩ : Fin 8192) 0) = P7 (ix3 0 r n) := fun n =>
    (cast_column_apply _ shapeCasts_S128x64_S8192x1 r n).trans (cast_block_apply P7 shapeCasts_S1x128x64_S128x64 r n)
  refine (addf_apply _ _ _).trans (congrArg₂ (· + ·) ?_ ?_)
  · -- the output projection: a sum over the features
    refine (matmul_out_apply _ _ r o).trans (Finset.sum_congr rfl fun f _ => congrArg₂ (· * ·) ?_ rfl)
    -- the aggregated feature: a sum over the neighbour slots
    refine (truncf_apply (ψ := .bf16) _ bitsLt_bf16_f32 (ix2 r f)).trans ((lane_sum_apply _ _ _ _ r f).trans (Finset.sum_congr rfl fun n _ => ?_))
    refine (mulf_apply _ _ _).trans (congrArg₂ (· * ·) ((mulf_apply _ _ _).trans (congrArg₂ (· * ·) ?_ ?_)) ?_)
    · -- the gathered neighbour feature
      exact (cast_rows_apply _ _ r n f).trans (gather_apply _ v6 _ f (P7 (ix3 0 r n)) (hidx n) (hr r n))
    · -- the filter: a sum over the hidden features, plus the bias row
      refine (cast_rows_apply _ _ r n f).trans ((addf_apply _ _ _).trans (congrArg₂ (· + ·) ?_ ?_))
      · exact matmul_filt_apply _ _ _ f
      · exact (bcast_row_wide_apply _ _ _ f).trans (congrFun (shapeCast_self P6 _) _)
    · -- the mask
      exact (bcast_lane_apply _ _ r n f).trans ((cast_unit_apply _ _ r n).trans (cast_block_apply P8 _ r n))
  · -- the output bias row
    exact (bcast_row_apply _ _ r o).trans (congrFun (shapeCast_self P10 _) _)

end Cert.KernelRead

end
-- ==== Proof.BlockSpec.lean ====
/-
  The output block of a grid point against the specification.

  With the pieces of the body read at an index (the two matrix products behind the filter network, the one-hot row selection,
  the lane sum over the neighbour slots, the output projection), the block entry `(0, r, o)` is the specification's
  `outAt` at batch `b`, atom `128 q + r`, feature `o`, for input blocks that are the arrays' slabs of that batch and tile.
-/
import proofs.«425397_j9715216023986_1_alg».proof.Proof.BlockValue
import proofs.«425397_j9715216023986_1_alg».proof.Proof.KernelPay
import proofs.«425397_j9715216023986_1_alg».proof.Proof.KernelAgg

noncomputable section

open scoped BigOperators

namespace Cert.KernelRead

open Cert.KernelIdeal Cert.KernelIdeal.Gen Cert.KernelIdeal.Value Cert.Spec Idealize.ShloMosaic Idealize.ShloMosaic.ValueIdx

/-- The output block at `(0, r, o)`, over the input blocks: the shifted softplus of the projection of the aggregated,
    filtered, gathered features. -/
theorem out_block (X0 : Vec Ideal S1x512x128 .f32) (X1 : Vec Ideal S1x128x64x25 .f32) (X2 : Vec Ideal S1x128x64 .i32)
    (X3 : Vec Ideal S1x128x64 .f32) (X4 : Vec Ideal S128x128 .f32) (X5 : Vec Ideal S25x128 .f32) (X6 : Vec Ideal S1x128 .f32)
    (X7 : Vec Ideal S128x128 .f32) (X8 : Vec Ideal S1x128 .f32) (X9 : Vec Ideal S128x128 .f32) (X10 : Vec Ideal S1x128 .f32)
    (hr : ∀ (r : Fin 128) (n : Fin 64), 0 ≤ (X2 (ix3 0 r n)).toInt ∧ (X2 (ix3 0 r n)).toInt < 512)
    (r o : Fin 128) :
    out0_11 (F := Ideal) X0 X1 X2 X3 X4 X5 X6 X7 X8 X9 X10 (ix3 0 r o)
      = ssp ((∑ f : Fin 128, (∑ n : Fin 64,
            ((∑ k : Fin 128, X0 (ix3 0 (⟨min (X2 (ix3 0 r n)).toInt.toNat 511, by omega⟩ : Fin 512) k) * X4 (ix2 k f))
              * ((∑ g : Fin 128, ssp ((∑ g' : Fin 25, X1 (ix4 0 r n g') * X5 (ix2 g' g)) + X6 (ix2 0 g)) * X7 (ix2 g f))
                  + X8 (ix2 0 f)))
            * X3 (ix3 0 r n)) * X9 (ix2 f o)) + X10 (ix2 0 o)) := by
  rw [out_block_ssp, pay4_apply _ _ _ _ _ _ _ _ hr r o]
  simp only [pay2_apply, pay3_apply]

/-- The same against the specification: input blocks that are batch `b`'s slab and tile `q`'s rows of the arrays give
    the specification's value at batch `b`, atom `128 q + r`. -/
theorem block_eq_spec (X0 : Vec Ideal S1x512x128 .f32) (X1 : Vec Ideal S1x128x64x25 .f32) (X2 : Vec Ideal S1x128x64 .i32)
    (X3 : Vec Ideal S1x128x64 .f32) (X4 : Vec Ideal S128x128 .f32) (X5 : Vec Ideal S25x128 .f32) (X6 : Vec Ideal S1x128 .f32)
    (X7 : Vec Ideal S128x128 .f32) (X8 : Vec Ideal S1x128 .f32) (X9 : Vec Ideal S128x128 .f32) (X10 : Vec Ideal S1x128 .f32)
    (x : FVec Ideal SX .f32) (fij : FVec Ideal SF .f32) (nb : IVec SN 32) (mask : FVec Ideal SN .f32)
    (win : FVec Ideal SW .f32) (wf1 : FVec Ideal SW1 .f32) (bf1 : FVec Ideal SB .f32)
    (wf2 : FVec Ideal SW .f32) (bf2 : FVec Ideal SB .f32) (wout : FVec Ideal SW .f32) (bout : FVec Ideal SB .f32)
    (b : Fin 16) (q : Fin 4)
    (h0 : ∀ (a : Fin 512) (k : Fin 128), X0 (ix3 0 a k) = x (ix3 b a k))
    (h1 : ∀ (r : Fin 128) (n : Fin 64) (g : Fin 25), X1 (ix4 0 r n g) = fij (ix4 b (⟨q.val * 128 + r.val, by omega⟩ : Fin 512) n g))
    (h2 : ∀ (r : Fin 128) (n : Fin 64), X2 (ix3 0 r n) = nb (ix3 b (⟨q.val * 128 + r.val, by omega⟩ : Fin 512) n))
    (h3 : ∀ (r : Fin 128) (n : Fin 64), X3 (ix3 0 r n) = mask (ix3 b (⟨q.val * 128 + r.val, by omega⟩ : Fin 512) n))
    (h4 : ∀ (k f : Fin 128), X4 (ix2 k f) = win (ix2 k f))
    (h5 : ∀ (g : Fin 25) (f : Fin 128), X5 (ix2 g f) = wf1 (ix2 g f))
    (h6 : ∀ f : Fin 128, X6 (ix2 0 f) = bf1 (ix1 f))
    (h7 : ∀ (g f : Fin 128), X7 (ix2 g f) = wf2 (ix2 g f))
    (h8 : ∀ f : Fin 128, X8 (ix2 0 f) = bf2 (ix1 f))
    (h9 : ∀ (f o : Fin 128), X9 (ix2 f o) = wout (ix2 f o))
    (h10 : ∀ o : Fin 128, X10 (ix2 0 o) = bout (ix1 o))
    (hr : InRange nb) (r o : Fin 128) :
    out0_11 (F := Ideal) X0 X1 X2 X3 X4 X5 X6 X7 X8 X9 X10 (ix3 0 r o)
      = outAt x fij nb mask win wf1 bf1 wf2 bf2 wout bout b (⟨q.val * 128 + r.val, by omega⟩ : Fin 512) o := by
  rw [out_block X0 X1 X2 X3 X4 X5 X6 X7 X8 X9 X10 (fun r n => by rw [h2]; exact hr _) r o]
  unfold outAt agg filt Cert.Spec.hidden inFeat nbr
  simp only [h0, h1, h2, h3, h4, h5, h6, h7, h8, h9, h10]

end Cert.KernelRead

end
-- ==== Proof.BlockReads.lean ====
/-
  Each input window's block at a grid point, read off the argument arrays.

  Grid point `t` is a batch `b` (0 ≤ b < 16) and a tile `q` of 128 atoms (0 ≤ q < 4). The feature window holds batch `b`'s
  whole `[512, 128]` slab; the filter-basis, neighbour and mask windows hold rows `128 q … 128 q + 127` of batch `b`; the weight
  windows hold their whole matrices; the three bias windows hold the bias vectors reshaped to one row.
-/
import proofs.«425397_j9715216023986_1_alg».proof.Proof.Gen.KernelIdeal.Value
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelRead

open Cert.KernelIdeal Cert.KernelIdeal.Gen Cert.KernelIdeal.Value Idealize.ShloMosaic.ValueIdx

variable {F : FTy → Type} [FloatOps F]
variable (m : (ℓ : Loc nD τ sig) → Buf (Elt F) ℓ)

/-- The printed index maps, decided over the 64 grid points: the batch coordinate and the tile coordinate of the output
    window are those of the windows that move with it, and every other block coordinate is 0. -/
theorem idx_facts : ∀ t : Fin cfg0.N,
    win0_11.index t (0 : Fin 3) ≤ 15 ∧ win0_11.index t (1 : Fin 3) ≤ 3 ∧ win0_11.index t (2 : Fin 3) = 0
    ∧ win0_0.index t (0 : Fin 3) = win0_11.index t (0 : Fin 3) ∧ win0_0.index t (1 : Fin 3) = 0 ∧ win0_0.index t (2 : Fin 3) = 0
    ∧ win0_1.index t (0 : Fin 4) = win0_11.index t (0 : Fin 3) ∧ win0_1.index t (1 : Fin 4) = win0_11.index t (1 : Fin 3)
      ∧ win0_1.index t (2 : Fin 4) = 0 ∧ win0_1.index t (3 : Fin 4) = 0
    ∧ win0_2.index t (0 : Fin 3) = win0_11.index t (0 : Fin 3) ∧ win0_2.index t (1 : Fin 3) = win0_11.index t (1 : Fin 3)
      ∧ win0_2.index t (2 : Fin 3) = 0
    ∧ win0_3.index t (0 : Fin 3) = win0_11.index t (0 : Fin 3) ∧ win0_3.index t (1 : Fin 3) = win0_11.index t (1 : Fin 3)
      ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The batch of grid point `t`. -/
def batchOf (t : Fin cfg0.N) : Fin 16 := ⟨win0_11.index t (0 : Fin 3), by have := (idx_facts t).1; omega⟩
/-- The atom tile of grid point `t`. -/
def tileOf (t : Fin cfg0.N) : Fin 4 := ⟨win0_11.index t (1 : Fin 3), by have := (idx_facts t).2.1; omega⟩

/-- Atom `r` of tile `q`. -/
abbrev atomOf (q : Fin 4) (r : Fin 128) : Fin 512 := ⟨q.val * 128 + r.val, by omega⟩

/-- The feature window's block is batch `b`'s slab of `x`. -/
theorem iblk0_apply (c : Dev nD) (t : Fin cfg0.N) (a : Fin 512) (k : Fin 128) :
    (iblk m c 0 t : Vec F S1x512x128 .f32) (ix3 0 a k)
      = (m ((c : Thread nD τ).loc main_arg0) : S16x512x128.Idx → Elt F .f32) (ix3 (batchOf t) a k) := by
  obtain ⟨-, -, -, e0, e1, e2, -⟩ := idx_facts t
  unfold iblk
  rw [View.read_apply]
  show V m c main_arg0 _ = _
  rw [V_main_arg0]
  congr 1
  funext d
  apply Fin.ext
  match d with
  | ⟨0, _⟩ => show win0_0.index t (0 : Fin 3) * 1 + 1 * 0 = win0_11.index t (0 : Fin 3); omega
  | ⟨1, _⟩ => show win0_0.index t (1 : Fin 3) * 512 + 1 * a.val = a.val; omega
  | ⟨2, _⟩ => show win0_0.index t (2 : Fin 3) * 128 + 1 * k.val = k.val; omega

/-- The filter-basis window's block is rows `128 q …` of batch `b` of `f_ij`. -/
theorem iblk1_apply (c : Dev nD) (t : Fin cfg0.N) (r : Fin 128) (n : Fin 64) (g : Fin 25) :
    (iblk m c 1 t : Vec F S1x128x64x25 .f32) (ix4 0 r n g)
      = (m ((c : Thread nD τ).loc main_arg2) : S16x512x64x25.Idx → Elt F .f32) (ix4 (batchOf t) (atomOf (tileOf t) r) n g) := by
  obtain ⟨-, -, -, -, -, -, e0, e1, e2, e3, -⟩ := idx_facts t
  unfold iblk
  rw [View.read_apply]
  show V m c main_arg2 _ = _
  rw [V_main_arg2]
  congr 1
  funext d
  apply Fin.ext
  match d with
  | ⟨0, _⟩ => show win0_1.index t (0 : Fin 4) * 1 + 1 * 0 = win0_11.index t (0 : Fin 3); omega
  | ⟨1, _⟩ => show win0_1.index t (1 : Fin 4) * 128 + 1 * r.val = win0_11.index t (1 : Fin 3) * 128 + r.val; omega
  | ⟨2, _⟩ => show win0_1.index t (2 : Fin 4) * 64 + 1 * n.val = n.val; omega
  | ⟨3, _⟩ => show win0_1.index t (3 : Fin 4) * 25 + 1 * g.val = g.val; omega

/-- The neighbour window's block is rows `128 q …` of batch `b` of the neighbour indices. -/
theorem iblk2_apply (c : Dev nD) (t : Fin cfg0.N) (r : Fin 128) (n : Fin 64) :
    (iblk m c 2 t : Vec F S1x128x64 .i32) (ix3 0 r n)
      = (m ((c : Thread nD τ).loc main_arg3) : S16x512x64.Idx → Elt F .i32) (ix3 (batchOf t) (atomOf (tileOf t) r) n) := by
  obtain ⟨-, -, -, -, -, -, -, -, -, -, e0, e1, e2, -⟩ := idx_facts t
  unfold iblk
  rw [View.read_apply]
  show V m c main_arg3 _ = _
  rw [V_main_arg3]
  congr 1
  funext d
  apply Fin.ext
  match d with
  | ⟨0, _⟩ => show win0_2.index t (0 : Fin 3) * 1 + 1 * 0 = win0_11.index t (0 : Fin 3); omega
  | ⟨1, _⟩ => show win0_2.index t (1 : Fin 3) * 128 + 1 * r.val = win0_11.index t (1 : Fin 3) * 128 + r.val; omega
  | ⟨2, _⟩ => show win0_2.index t (2 : Fin 3) * 64 + 1 * n.val = n.val; omega

/-- The mask window's block is rows `128 q …` of batch `b` of the pairwise mask. -/
theorem iblk3_apply (c : Dev nD) (t : Fin cfg0.N) (r : Fin 128) (n : Fin 64) :
    (iblk m c 3 t : Vec F S1x128x64 .f32) (ix3 0 r n)
      = (m ((c : Thread nD τ).loc main_arg4) : S16x512x64.Idx → Elt F .f32) (ix3 (batchOf t) (atomOf (tileOf t) r) n) := by
  obtain ⟨-, -, -, -, -, -, -, -, -, -, -, -, -, e0, e1, e2, -⟩ := idx_facts t
  unfold iblk
  rw [View.read_apply]
  show V m c main_arg4 _ = _
  rw [V_main_arg4]
  congr 1
  funext d
  apply Fin.ext
  match d with
  | ⟨0, _⟩ => show win0_3.index t (0 : Fin 3) * 1 + 1 * 0 = win0_11.index t (0 : Fin 3); omega
  | ⟨1, _⟩ => show win0_3.index t (1 : Fin 3) * 128 + 1 * r.val = win0_11.index t (1 : Fin 3) * 128 + r.val; omega
  | ⟨2, _⟩ => show win0_3.index t (2 : Fin 3) * 64 + 1 * n.val = n.val; omega

/-- The input-projection weight window holds the whole matrix. -/
theorem iblk4_apply (c : Dev nD) (t : Fin cfg0.N) (k : Fin 128) (f : Fin 128) :
    (iblk m c 4 t : Vec F S128x128 .f32) (ix2 k f)
      = (m ((c : Thread nD τ).loc main_arg5) : S128x128.Idx → Elt F .f32) (ix2 k f) := by
  obtain ⟨-, -, -, -, -, -, -, -, -, -, -, -, -, -, -, -, e0, e1, -⟩ := idx_facts t
  unfold iblk
  rw [View.read_apply]
  show V m c main_arg5 _ = _
  rw [V_main_arg5]
  congr 1
  funext d
  apply Fin.ext
  match d with
  | ⟨0, _⟩ => show win0_4.index t (0 : Fin 2) * 128 + 1 * k.val = k.val; omega
  | ⟨1, _⟩ => show win0_4.index t (1 : Fin 2) * 128 + 1 * f.val = f.val; omega

/-- The first filter weight window holds the whole matrix. -/
theorem iblk5_apply (c : Dev nD) (t : Fin cfg0.N) (g : Fin 25) (f : Fin 128) :
    (iblk m c 5 t : Vec F S25x128 .f32) (ix2 g f)
      = (m ((c : Thread nD τ).loc main_arg6) : S25x128.Idx → Elt F .f32) (ix2 g f) := by
  obtain ⟨-, -, -, -, -, -, -, -, -, -, -, -, -, -, -, -, -, -, e0, e1, -⟩ := idx_facts t
  unfold iblk
  rw [View.read_apply]
  show V m c main_arg6 _ = _
  rw [V_main_arg6]
  congr 1
  funext d
  apply Fin.ext
  match d with
  | ⟨0, _⟩ => show win0_5.index t (0 : Fin 2) * 25 + 1 * g.val = g.val; omega
  | ⟨1, _⟩ => show win0_5.index t (1 : Fin 2) * 128 + 1 * f.val = f.val; omega

/-- The second filter weight window holds the whole matrix. -/
theorem iblk7_apply (c : Dev nD) (t : Fin cfg0.N) (g : Fin 128) (f : Fin 128) :
    (iblk m c 7 t : Vec F S128x128 .f32) (ix2 g f)
      = (m ((c : Thread nD τ).loc main_arg8) : S128x128.Idx → Elt F .f32) (ix2 g f) := by
  obtain ⟨-, -, -, -, -, -, -, -, -, -, -, -, -, -, -, -, -, -, -, -, -, -, e0, e1, -⟩ := idx_facts t
  unfold iblk
  rw [View.read_apply]
  show V m c main_arg8 _ = _
  rw [V_main_arg8]
  congr 1
  funext d
  apply Fin.ext
  match d with
  | ⟨0, _⟩ => show win0_7.index t (0 : Fin 2) * 128 + 1 * g.val = g.val; omega
  | ⟨1, _⟩ => show win0_7.index t (1 : Fin 2) * 128 + 1 * f.val = f.val; omega

/-- The output-projection weight window holds the whole matrix. -/
theorem iblk9_apply (c : Dev nD) (t : Fin cfg0.N) (f : Fin 128) (o : Fin 128) :
    (iblk m c 9 t : Vec F S128x128 .f32) (ix2 f o)
      = (m ((c : Thread nD τ).loc main_arg10) : S128x128.Idx → Elt F .f32) (ix2 f o) := by
  obtain ⟨-, -, -, -, -, -, -, -, -, -, -, -, -, -, -, -, -, -, -, -, -, -, -, -, -, -, e0, e1, -⟩ := idx_facts t
  unfold iblk
  rw [View.read_apply]
  show V m c main_arg10 _ = _
  rw [V_main_arg10]
  congr 1
  funext d
  apply Fin.ext
  match d with
  | ⟨0, _⟩ => show win0_9.index t (0 : Fin 2) * 128 + 1 * f.val = f.val; omega
  | ⟨1, _⟩ => show win0_9.index t (1 : Fin 2) * 128 + 1 * o.val = o.val; omega

/-! ## The bias rows: a bias vector reshaped to `[1, 128]` by the host before the region -/

/-- A `[128]` vector reshaped to `[1, 128]`, read at `(0, f)`, is the vector at `f`. -/
theorem row_of_vec {α : Type} (x : S128.Idx → α) (f : Fin 128) :
    shapeCast S1x128 x shapeCasts_S128_S1x128 (ix2 0 f) = x (ix1 f) := by
  refine shapeCast_apply _ _ (ix2 0 f) (ix1 f) ?_
  rw [Shape.rowMajor_val_two, Shape.rowMajor_val_one]
  show f.val = 0 * 128 + f.val
  omega

theorem V_main_v0 (c : Dev nD) :
    (V m c main_v0 : S1x128.Idx → Elt F .f32) = shapeCast S1x128 (m ((c : Thread nD τ).loc main_arg7) : S128.Idx → Elt F .f32) shapeCasts_S128_S1x128 := by
  dsimp only [V, hostOps0]
  after_results
  rfl

theorem V_main_v1 (c : Dev nD) :
    (V m c main_v1 : S1x128.Idx → Elt F .f32) = shapeCast S1x128 (m ((c : Thread nD τ).loc main_arg9) : S128.Idx → Elt F .f32) shapeCasts_S128_S1x128 := by
  dsimp only [V, hostOps0]
  after_results
  rfl

theorem V_main_v2 (c : Dev nD) :
    (V m c main_v2 : S1x128.Idx → Elt F .f32) = shapeCast S1x128 (m ((c : Thread nD τ).loc main_arg11) : S128.Idx → Elt F .f32) shapeCasts_S128_S1x128 := by
  dsimp only [V, hostOps0]
  after_results
  rfl

/-- The first bias window holds `b_f1` as one row. -/
theorem iblk6_apply (c : Dev nD) (t : Fin cfg0.N) (f : Fin 128) :
    (iblk m c 6 t : Vec F S1x128 .f32) (ix2 0 f)
      = (m ((c : Thread nD τ).loc main_arg7) : S128.Idx → Elt F .f32) (ix1 f) := by
  obtain ⟨-, -, -, -, -, -, -, -, -, -, -, -, -, -, -, -, -, -, -, -, e0, e1, -⟩ := idx_facts t
  unfold iblk
  rw [View.read_apply]
  show (V m c main_v0 : S1x128.Idx → Elt F .f32) _ = _
  rw [V_main_v0]
  refine Eq.trans (congrArg _ ?_) (row_of_vec _ f)
  funext d
  apply Fin.ext
  match d with
  | ⟨0, _⟩ => show win0_6.index t (0 : Fin 2) * 1 + 1 * 0 = 0; omega
  | ⟨1, _⟩ => show win0_6.index t (1 : Fin 2) * 128 + 1 * f.val = f.val; omega

/-- The second bias window holds `b_f2` as one row. -/
theorem iblk8_apply (c : Dev nD) (t : Fin cfg0.N) (f : Fin 128) :
    (iblk m c 8 t : Vec F S1x128 .f32) (ix2 0 f)
      = (m ((c : Thread nD τ).loc main_arg9) : S128.Idx → Elt F .f32) (ix1 f) := by
  obtain ⟨-, -, -, -, -, -, -, -, -, -, -, -, -, -, -, -, -, -, -, -, -, -, -, -, e0, e1, -⟩ := idx_facts t
  unfold iblk
  rw [View.read_apply]
  show (V m c main_v1 : S1x128.Idx → Elt F .f32) _ = _
  rw [V_main_v1]
  refine Eq.trans (congrArg _ ?_) (row_of_vec _ f)
  funext d
  apply Fin.ext
  match d with
  | ⟨0, _⟩ => show win0_8.index t (0 : Fin 2) * 1 + 1 * 0 = 0; omega
  | ⟨1, _⟩ => show win0_8.index t (1 : Fin 2) * 128 + 1 * f.val = f.val; omega

/-- The third bias window holds `b_out` as one row. -/
theorem iblk10_apply (c : Dev nD) (t : Fin cfg0.N) (o : Fin 128) :
    (iblk m c 10 t : Vec F S1x128 .f32) (ix2 0 o)
      = (m ((c : Thread nD τ).loc main_arg11) : S128.Idx → Elt F .f32) (ix1 o) := by
  obtain ⟨-, -, -, -, -, -, -, -, -, -, -, -, -, -, -, -, -, -, -, -, -, -, -, -, -, -, -, -, e0, e1⟩ := idx_facts t
  unfold iblk
  rw [View.read_apply]
  show (V m c main_v2 : S1x128.Idx → Elt F .f32) _ = _
  rw [V_main_v2]
  refine Eq.trans (congrArg _ ?_) (row_of_vec _ o)
  funext d
  apply Fin.ext
  match d with
  | ⟨0, _⟩ => show win0_10.index t (0 : Fin 2) * 1 + 1 * 0 = 0; omega
  | ⟨1, _⟩ => show win0_10.index t (1 : Fin 2) * 128 + 1 * o.val = o.val; omega

end Cert.KernelRead

end
-- ==== Proof.KernelFinal.lean ====
/-
  The kernel's result array after the run is the specification.

  Grid point `t` (batch `b`, tile `q`) writes back the output block whose entry `(0, r, o)` is the specification at
  `(b, 128 q + r, o)` — exactly the array index that block entry sits at. The 64 blocks tile the `[16, 512, 128]` array, so
  after the last write-back the array is the specification everywhere.
-/
import proofs.«425397_j9715216023986_1_alg».proof.Proof.BlockSpec
import proofs.«425397_j9715216023986_1_alg».proof.Proof.BlockReads

noncomputable section

open Idealize.ShloMosaic Idealize.ShloMosaic.TcCoe Idealize.SL.Sem
open Idealize.ShloMosaic.Pipeline (Dat)

namespace Cert.KernelRead

open Cert.KernelIdeal Cert.KernelIdeal.Gen Cert.KernelIdeal.Value Cert.Spec Idealize.ShloMosaic.ValueIdx

variable (m : (ℓ : Loc nD τ sig) → Buf (Elt Ideal) ℓ) (ρ : Dev nD → PrngReg)

/-- The specification of the argument arrays as launched. -/
abbrev specOf (c : Dev nD) : S16x512x128.Idx → Elt Ideal .f32 :=
  G (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- WHAT POINT `t` WRITES BACK is block `t` of the specification. -/
theorem flushed_eq (c : Dev nD) (hr : InRange (m ((c : Thread nD τ).loc main_arg3))) (t : Fin cfg0.N) :
    (dats m 0 c).flushed 11 t = ((cfg0.win 11).blk t).view.read (Elt Ideal) (specOf m c) := by
  rw [flushed11]
  funext j
  obtain ⟨z, r, o, rfl⟩ : ∃ (z : Fin 1) (r o : Fin 128), j = ix3 z r o := ⟨j 0, j 1, j 2, eq_ix3 j⟩
  obtain rfl : z = 0 := Subsingleton.elim _ _
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix3 0 r o) = specOf m c (((cfg0.win 11).blk t).view.emb (ix3 0 r o))
  refine (block_eq_spec (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))
    (batchOf t) (tileOf t)
    (fun a k => iblk0_apply m c t a k) (fun r n g => iblk1_apply m c t r n g) (fun r n => iblk2_apply m c t r n)
    (fun r n => iblk3_apply m c t r n) (fun k f => iblk4_apply m c t k f) (fun g f => iblk5_apply m c t g f)
    (fun f => iblk6_apply m c t f) (fun g f => iblk7_apply m c t g f) (fun f => iblk8_apply m c t f)
    (fun f o => iblk9_apply m c t f o) (fun o => iblk10_apply m c t o) hr r o).trans ?_
  obtain ⟨-, -, e2, -⟩ := idx_facts t
  show outAt _ _ _ _ _ _ _ _ _ _ _ _ _ _ = outAt _ _ _ _ _ _ _ _ _ _ _ _ _ _
  congr 1
  · apply Fin.ext; show win0_11.index t (0 : Fin 3) = win0_11.index t (0 : Fin 3) * 1 + 1 * 0; omega
  · apply Fin.ext; show win0_11.index t (1 : Fin 3) * 128 + r.val = win0_11.index t (1 : Fin 3) * 128 + 1 * r.val; omega
  · apply Fin.ext; show o.val = win0_11.index t (2 : Fin 3) * 128 + 1 * o.val; omega

/-- Every block of the output array is some grid point's. -/
theorem idx_onto : ∀ (q0 : Fin 16) (q1 : Fin 4), ∃ t : Fin cfg0.N, win0_11.index t = ![q0.val, q1.val, 0] :=
  (by decide +kernel : ∀ (q0 : Fin 16) (q1 : Fin 4), ∃ t : Fin grid0.N, win0_11.index t = ![q0.val, q1.val, 0])

/-- An index of the array is in point `t`'s block iff each coordinate is in the block's range on its axis. -/
theorem mem_blk (t : Fin cfg0.N) (i : S16x512x128.Idx) :
    i ∈ ((cfg0.win 11).blk t).view.set ↔ ∀ a : Fin 3, win0_11.index t a * S1x128x128.size a ≤ (i a).val ∧ (i a).val < win0_11.index t a * S1x128x128.size a + S1x128x128.size a := by
  show i ∈ ((View.whole main_v3).slice (win0_11.rect t)).set ↔ _
  rw [View.set_slice_whole, Rect.mem_set_unit]
  exact Iff.rfl

/-- The 64 blocks cover the array: index `(b, a, o)` lies in the block of batch `b` and tile `a / 128`. -/
theorem covered (i : S16x512x128.Idx) :
    ∃ t : Fin cfg0.N, (cfg0.win 11).flush t = true ∧ i ∈ ((cfg0.win 11).blk t).view.set := by
  have hi0 : (i 0).val < 16 := (i 0).isLt
  have hi1 : (i 1).val < 512 := (i 1).isLt
  have hi2 : (i 2).val < 128 := (i 2).isLt
  obtain ⟨t, ht⟩ := idx_onto ⟨(i 0).val, hi0⟩ ⟨(i 1).val / 128, by omega⟩
  have q0 : win0_11.index t (0 : Fin 3) = (i 0).val := congrFun ht 0
  have q1 : win0_11.index t (1 : Fin 3) = (i 1).val / 128 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 128 ≤ (i 1).val ∧ (i 1).val < win0_11.index t (1 : Fin 3) * 128 + 128; omega
  | ⟨2, _⟩ => show win0_11.index t (2 : Fin 3) * 128 ≤ (i 2).val ∧ (i 2).val < win0_11.index t (2 : Fin 3) * 128 + 128; omega

/-- THE ARRAY after the run is the specification of the arguments. -/
theorem final (c : Dev nD) (hr : InRange (m ((c : Thread nD τ).loc main_arg3))) :
    (dats m 0 c).arrAt 11 cfg0.N = specOf m c :=
  (dats m 0 c).arrAt_eq_of_cover 11 (specOf m c) (fun t _ => flushed_eq m c hr t) covered

/-- The kernel's run, read: the result array at the specification, the arguments unchanged. -/
theorem run (hr : ∀ c : Dev nD, InRange (m ((c : Thread nD τ).loc main_arg3))) :
    θ_run defs (onTc (τ := τ) (main (F := Ideal))) ⟨m, fun _ => 0, ρ⟩ fun r => ∀ c : Dev nD,
      r.2.mem ((c : Thread nD τ).loc main_v3) = specOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c (hr c)), (h c).2⟩) (run_blocks m ρ)

end Cert.KernelRead

end
-- ==== Proof.RefValue.lean ====
/-
  The reference program's result is the specification `G` (Spec.lean), index by index, at the ideal instance.

  The reference computes, for batch `b`, atom `a`, neighbour slot `n` and feature `f`:
    the hidden layer   h = ssp (f_ij · W_f1 + b_f1)        (a dot_general, a bias broadcast, the softplus callee, − c),
    the filter         W = h · W_f2 + b_f2,
    the projection     y = x · W_in2f,
    the gather         g[b, a·64+n, f] = y[b, nbh[b, a, n], f]  (take_along_axis over the neighbour indices flattened
                       row-major to [16, 32768, 1]),
    the aggregate      agg = 0 + Σ_n (g · W) · mask,
    the output         out = ssp (agg · W_out + b_out).
  Every stage but two is read at an index from its operands at an index by the lemmas of RefRead.lean; composed index
  functions are identified with coordinate constructors by computing each axis. The two stages read here are the ones
  whose element is not one element of each operand:
  · the in-bounds mask is the conjunction `0 ≤ idx ∧ idx ≤ 511` reduced by `and` from `true` over the index vector's
    axis, which has size one: a fold over one element. Under the range hypothesis (every neighbour index in [0, 512))
    the conjunction is `true`, so the mask is `true` and the final select takes the gathered value, never the NaN fill;
  · the gather has a batching axis (operand axis 0 with start-indices axis 0), an indexed and collapsed axis (operand
    axis 1, whose start is the start index read signed and clamped into [0, 512 − 1]) and an offset axis (operand axis
    2): at `(b, e, f)` it reads the operand at `(b, clamp idx[b, e, 0], f)`. Under the range hypothesis the wrap of
    negative indices `select (idx < 0) (idx + 512) idx` is `idx`, and the clamp is `Spec.nbr`.
  Both softplus callees, followed by the subtraction of the constant, are `Spec.ssp` of their argument (Softplus.lean).
-/
import proofs.«425397_j9715216023986_1_alg».proof.Proof.RefRead
import proofs.«425397_j9715216023986_1_alg».proof.Proof.Softplus
import Idealize.ShloMosaic.Lib.ValueIdx
import Idealize.ShloMosaic.PureOps.Dims
import Idealize.ShloMosaic.PureOps.ShapeOps
import Idealize.ShloMosaic.PureOps.Reduce
import Idealize.ShloMosaic.PureOps.Ideal.Laws

noncomputable section

open scoped BigOperators

namespace Cert.RefValue

open Cert.ReferenceIdeal Cert.ReferenceIdeal.ReadP Cert.Spec Idealize.ShloMosaic Idealize.ShloMosaic.ValueIdx

/-! ## The filter network: hidden layer and filter -/

theorem lidx_v0 (b : Fin 16) (a : Fin 512) (n : Fin 64) (f : Fin 128) (k : Fin 25) :
    lidx_main_v0 (ix4 b a n f) k = ix4 b a n k :=
  funext fun c => Fin.ext (by match c with | ⟨0, _⟩ => rfl | ⟨1, _⟩ => rfl | ⟨2, _⟩ => rfl | ⟨3, _⟩ => rfl)

theorem ridx_v0 (b : Fin 16) (a : Fin 512) (n : Fin 64) (f : Fin 128) (k : Fin 25) :
    ridx_main_v0 (ix4 b a n f) k = ix2 k f :=
  funext fun c => Fin.ext (by match c with | ⟨0, _⟩ => rfl | ⟨1, _⟩ => rfl)

theorem idx_v1v2 (b : Fin 16) (a : Fin 512) (n : Fin 64) (f : Fin 128) :
    idx_main_v1 (idx_main_v2 (ix4 b a n f)) = ix1 f :=
  funext fun c => Fin.ext (by match c with | ⟨0, _⟩ => rfl)

/-- The hidden layer before its activation: the filter input times the first weight matrix, plus the first bias. -/
theorem v3_at (x2 : FVec Ideal S16x512x64x25 .f32) (x6 : FVec Ideal S25x128 .f32) (x7 : FVec Ideal S128 .f32)
    (b : Fin 16) (a : Fin 512) (n : Fin 64) (f : Fin 128) :
    val_main_v3 (F := Ideal) x2 x6 x7 (ix4 b a n f)
      = (∑ g : Fin 25, x2 (ix4 b a n g) * x6 (ix2 g f)) + x7 (ix1 f) := by
  rw [val_main_v3_apply, val_main_v0_apply, val_main_v2_apply, val_main_v1_apply]
  simp only [lidx_v0, ridx_v0, idx_v1v2, Ideal.addf_def]

/-- The first activation, at any index: the softplus callee followed by the subtraction of the constant is the
    shifted softplus of the callee's argument. -/
theorem v6_eq_ssp (x2 : FVec Ideal S16x512x64x25 .f32) (x6 : FVec Ideal S25x128 .f32) (x7 : FVec Ideal S128 .f32)
    (i : S16x512x64x128.Idx) :
    val_main_v6 (F := Ideal) x2 x6 x7 i = ssp (val_main_v3 (F := Ideal) x2 x6 x7 i) := by
  simp only [val_main_v6_apply, val_main_v4_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, val_main_v5_apply, val_main_cst_apply]
  exact ref_ssp _

/-- The hidden layer. -/
theorem v6_at (x2 : FVec Ideal S16x512x64x25 .f32) (x6 : FVec Ideal S25x128 .f32) (x7 : FVec Ideal S128 .f32)
    (b : Fin 16) (a : Fin 512) (n : Fin 64) (f : Fin 128) :
    val_main_v6 (F := Ideal) x2 x6 x7 (ix4 b a n f) = hidden x2 x6 x7 b a n f := by
  rw [v6_eq_ssp, v3_at]
  rfl

theorem lidx_v7 (b : Fin 16) (a : Fin 512) (n : Fin 64) (f : Fin 128) (k : Fin 128) :
    lidx_main_v7 (ix4 b a n f) k = ix4 b a n k :=
  funext fun c => Fin.ext (by match c with | ⟨0, _⟩ => rfl | ⟨1, _⟩ => rfl | ⟨2, _⟩ => rfl | ⟨3, _⟩ => rfl)

theorem ridx_v7 (b : Fin 16) (a : Fin 512) (n : Fin 64) (f : Fin 128) (k : Fin 128) :
    ridx_main_v7 (ix4 b a n f) k = ix2 k f :=
  funext fun c => Fin.ext (by match c with | ⟨0, _⟩ => rfl | ⟨1, _⟩ => rfl)

theorem idx_v8v9 (b : Fin 16) (a : Fin 512) (n : Fin 64) (f : Fin 128) :
    idx_main_v8 (idx_main_v9 (ix4 b a n f)) = ix1 f :=
  funext fun c => Fin.ext (by match c with | ⟨0, _⟩ => rfl)

/-- The filter: the hidden layer times the second weight matrix, plus the second bias. -/
theorem v10_at (x2 : FVec Ideal S16x512x64x25 .f32) (x6 : FVec Ideal S25x128 .f32) (x7 : FVec Ideal S128 .f32)
    (x8 : FVec Ideal S128x128 .f32) (x9 : FVec Ideal S128 .f32)
    (b : Fin 16) (a : Fin 512) (n : Fin 64) (f : Fin 128) :
    val_main_v10 (F := Ideal) x2 x6 x7 x8 x9 (ix4 b a n f) = filt x2 x6 x7 x8 x9 b a n f := by
  rw [val_main_v10_apply, val_main_v7_apply, val_main_v9_apply, val_main_v8_apply]
  simp only [lidx_v7, ridx_v7, idx_v8v9, v6_at, Ideal.addf_def]
  rfl

/-! ## The input projection -/

theorem lidx_v11 (b : Fin 16) (a : Fin 512) (f : Fin 128) (k : Fin 128) :
    lidx_main_v11 (ix3 b a f) k = ix3 b a k :=
  funext fun c => Fin.ext (by match c with | ⟨0, _⟩ => rfl | ⟨1, _⟩ => rfl | ⟨2, _⟩ => rfl)

theorem ridx_v11 (b : Fin 16) (a : Fin 512) (f : Fin 128) (k : Fin 128) :
    ridx_main_v11 (ix3 b a f) k = ix2 k f :=
  funext fun c => Fin.ext (by match c with | ⟨0, _⟩ => rfl | ⟨1, _⟩ => rfl)

/-- The input projection. -/
theorem v11_at (x0 : FVec Ideal S16x512x128 .f32) (x5 : FVec Ideal S128x128 .f32)
    (b : Fin 16) (a : Fin 512) (f : Fin 128) :
    val_main_v11 (F := Ideal) x0 x5 (ix3 b a f) = inFeat x0 x5 b a f := by
  rw [val_main_v11_apply]
  simp only [lidx_v11, ridx_v11]
  rfl

/-! ## The gather

A neighbour index in `[0, 512)` is not wrapped (it is not negative), is inside the bounds the gather checks, and is
its own clamp. -/

/-- A non-negative index is not wrapped around. -/
theorem wrap_inRange (w : BitVec 32) (h0 : 0 ≤ w.toInt) :
    Scalar.select (IntOp.cmpi .slt w 0#32) (IntOp.addi w 512#32) w = w := by
  have h : IntOp.cmpi .slt w 0#32 = 0#1 := by
    simp only [IntOp.cmpi, BitVec.slt, BitVec.toInt_zero]
    rw [decide_eq_false (by omega)]
    rfl
  rw [h, select_zero]

/-- An index in `[0, 512)` passes the bounds check `0 ≤ · ≤ 511`. -/
theorem inBounds_inRange (w : BitVec 32) (h0 : 0 ≤ w.toInt) (h1 : w.toInt < 512) :
    IntOp.andi (IntOp.cmpi .sge w 0#32) (IntOp.cmpi .sle w 511#32) = 1#1 := by
  have e : (511#32 : BitVec 32).toInt = 511 := by decide
  have hge : IntOp.cmpi .sge w 0#32 = 1#1 := by
    simp only [IntOp.cmpi, BitVec.sle, BitVec.toInt_zero]
    rw [decide_eq_true h0]
    rfl
  have hle : IntOp.cmpi .sle w 511#32 = 1#1 := by
    simp only [IntOp.cmpi, BitVec.sle, e]
    rw [decide_eq_true (by omega)]
    rfl
  rw [hge, hle]
  rfl

/-- The reshape `[16, 512, 64] → [16, 32768, 1]` is row-major: row `e` of the flat array is atom `e / 64`, slot `e % 64`. -/
theorem idx_v12 (b : Fin 16) (e : Fin 32768) (z : Fin 1) :
    idx_main_v12 (ix3 b e z) = ix3 b (⟨e.val / 64, by omega⟩ : Fin 512) (⟨e.val % 64, by omega⟩ : Fin 64) := by
  have hb := b.isLt
  have he := e.isLt
  have hz := z.isLt
  funext c
  refine Fin.ext ?_
  match c with
  | ⟨0, _⟩ => show ((b.val * 32768 + e.val) * 1 + z.val) / 32768 = b.val; omega
  | ⟨1, _⟩ => show ((b.val * 32768 + e.val) * 1 + z.val) / 64 % 512 = e.val / 64; omega
  | ⟨2, _⟩ => show ((b.val * 32768 + e.val) * 1 + z.val) % 64 = e.val % 64; omega

/-- The start index the gather reads: under the range hypothesis, the neighbour index itself. -/
theorem v4c_at (x3 : IVec S16x512x64 32) (hr : InRange x3) (b : Fin 16) (e : Fin 32768) (z : Fin 1) :
    val_main_call1_v4 (F := Ideal) x3 (ix3 b e z)
      = x3 (ix3 b (⟨e.val / 64, by omega⟩ : Fin 512) (⟨e.val % 64, by omega⟩ : Fin 64)) := by
  simp only [val_main_call1_v4_apply, val_main_call1_v1_apply, val_main_call1_v3_apply, val_main_call1_v0_apply,
    val_main_call1_v2_apply, val_main_call1_c_apply, val_main_call1_c_0_apply, val_main_v12_apply, idx_v12]
  exact wrap_inRange _ (hr _).1

/-- The bounds check at a start index holds under the range hypothesis. -/
theorem v10c_at (x3 : IVec S16x512x64 32) (hr : InRange x3) (b : Fin 16) (e : Fin 32768) (z : Fin 1) :
    val_main_call1_v10 (F := Ideal) x3 (ix3 b e z) = 1#1 := by
  simp only [val_main_call1_v10_apply, val_main_call1_v6_apply, val_main_call1_v9_apply, val_main_call1_v5_apply,
    val_main_call1_v8_apply, val_main_call1_v7_apply, val_main_call1_c_1_apply, val_main_call1_c_2_apply,
    v4c_at x3 hr]
  exact inBounds_inRange _ (hr _).1 (hr _).2

/-- A fold over a one-element index range is one application of the operation. -/
theorem fold_univ_one {α : Type} (op : α → α → α) [Std.Commutative op] [Std.Associative op] (b : α) (g : Fin 1 → α) :
    (Finset.univ : Finset (Fin 1)).fold op b g = op (g 0) b := by
  rw [Finset.univ_unique, Finset.fold_singleton]
  rfl

theorem reduces_mask : S16x32768x1.Reduces [2] S16x32768 := by decide

/-- The in-bounds mask, the bounds check reduced by `and` over the size-one index-vector axis from `true`, is `true`
    everywhere under the range hypothesis. -/
theorem v11c_at (x3 : IVec S16x512x64 32) (hr : InRange x3) (b : Fin 16) (e : Fin 32768) :
    val_main_call1_v11 (F := Ideal) x3 (ix2 b e) = 1#1 := by
  unfold val_main_call1_v11
  rw [Host.reduce_eq_fold_single IntOp.andi _ _ _ reduces_mask]
  refine (fold_univ_one IntOp.andi _ _).trans ?_
  have hl : reduces_mask.lift (ix2 b e) (0 : Fin 1) = ix3 b e (0 : Fin 1) :=
    funext fun c => Fin.ext (by match c with | ⟨0, _⟩ => rfl | ⟨1, _⟩ => rfl | ⟨2, _⟩ => rfl)
  show IntOp.andi (val_main_call1_v10 (F := Ideal) x3 (reduces_mask.lift (ix2 b e) (0 : Fin 1))) _ = _
  rw [hl, v10c_at x3 hr]
  rfl

/-- The gather's dimension numbers: operand axis 0 is a batching axis (paired with start-indices axis 0), operand
    axis 1 is indexed and collapsed, operand axis 2 is the offset axis. -/
abbrev gD : GatherDims S16x512x128 S16x32768x1 S16x32768x128 :=
  gather_S16x512x128_S16x32768x1_S16x32768x128_2_1_0_0_1_2_11128

/-- On the batching axis the gather reads the result's batch coordinate. -/
theorem gather_axis0 (idx : IVec S16x32768x1 32) (j : S16x32768x128.Idx) :
    (gD.operandIdx j idx 0).val = (j 0).val := by
  show gD.start j idx 0 + gD.batchCoord j 0 + gD.offCoord j 0 = _
  rw [gD.start_batching j idx 0 (List.mem_singleton.mpr rfl),
    gD.offCoord_eq_zero j 0 (fun h => ((gD.mem_sKept 0).mp h).2 (List.mem_singleton.mpr rfl))]
  simp only [Nat.zero_add, Nat.add_zero]
  unfold GatherDims.batchCoord
  rw [dif_pos (show (0 : Fin S16x512x128.rank) ∈ gD.operandBatchingDims from List.mem_singleton.mpr rfl)]
  rfl

/-- On the indexed axis the gather reads the start index, signed and clamped into `[0, 511]`. -/
theorem gather_axis1 (idx : IVec S16x32768x1 32) (b : Fin 16) (e : Fin 32768) (f : Fin 128) :
    (gD.operandIdx (ix3 b e f) idx 1).val = min (idx (ix3 b e (0 : Fin 1))).toInt.toNat 511 := by
  show gD.start (ix3 b e f) idx 1 + gD.batchCoord (ix3 b e f) 1 + gD.offCoord (ix3 b e f) 1 = _
  rw [gD.batchCoord_eq_zero _ 1 (by decide),
    gD.offCoord_eq_zero _ 1 (fun h => ((gD.mem_sKept 1).mp h).1 (List.mem_singleton.mpr rfl))]
  simp only [Nat.add_zero]
  unfold GatherDims.start
  rw [dif_pos (show (1 : Fin S16x512x128.rank) ∈ gD.startIndexMap from List.mem_singleton.mpr rfl)]
  have hsi : gD.siIdx (ix3 b e f) ⟨List.idxOf (1 : Fin S16x512x128.rank) gD.startIndexMap,
      List.idxOf_lt_length_iff.2 (List.mem_singleton.mpr rfl)⟩ = ix3 b e (0 : Fin 1) := by
    funext c
    refine Fin.ext ?_
    match c with
    | ⟨0, _⟩ => rfl
    | ⟨1, _⟩ => rfl
    | ⟨2, _⟩ => rfl
  rw [hsi]
  rfl

/-- On the offset axis the gather reads the result's offset coordinate. -/
theorem gather_axis2 (idx : IVec S16x32768x1 32) (j : S16x32768x128.Idx) :
    (gD.operandIdx j idx 2).val = (j 2).val := by
  show gD.start j idx 2 + gD.batchCoord j 2 + gD.offCoord j 2 = _
  rw [gD.batchCoord_eq_zero j 2 (by decide)]
  unfold GatherDims.start
  rw [dif_neg (show ¬ (2 : Fin S16x512x128.rank) ∈ gD.startIndexMap by decide)]
  unfold GatherDims.offCoord
  rw [dif_pos (show (2 : Fin S16x512x128.rank) ∈ gD.sKept from (gD.mem_sKept 2).mpr ⟨by decide, by decide⟩)]
  simp only [Nat.zero_add, Nat.add_zero]
  rfl

/-- THE GATHER READ AT `(b, e, f)`: the operand at batch `b`, at the start index `idx[b, e, 0]` read signed and clamped
    into `[0, 511]`, at feature `f`. -/
theorem gather_at {α : Type} (x : S16x512x128.Idx → α) (idx : IVec S16x32768x1 32)
    (b : Fin 16) (e : Fin 32768) (f : Fin 128) :
    Host.gather gD x idx (ix3 b e f)
      = x (ix3 b (⟨min (idx (ix3 b e (0 : Fin 1))).toInt.toNat 511, by omega⟩ : Fin 512) f) := by
  unfold Host.gather
  congr 1
  funext a
  refine Fin.ext ?_
  match a with
  | ⟨0, _⟩ => exact gather_axis0 idx _
  | ⟨1, _⟩ => exact gather_axis1 idx b e f
  | ⟨2, _⟩ => exact gather_axis2 idx _

theorem idx_v13c (b : Fin 16) (e : Fin 32768) (f : Fin 128) :
    idx_main_call1_v13 (ix3 b e f) = ix2 b e :=
  funext fun c => Fin.ext (by match c with | ⟨0, _⟩ => rfl | ⟨1, _⟩ => rfl)

/-- The gathered neighbour features: row `e = a * 64 + n` of the flat array is the input projection at the neighbour
    in slot `n` of atom `a`. The mask is `true`, so the select takes the gathered value. -/
theorem v13_at (x0 : FVec Ideal S16x512x128 .f32) (x3 : IVec S16x512x64 32) (x5 : FVec Ideal S128x128 .f32)
    (hr : InRange x3) (b : Fin 16) (e : Fin 32768) (f : Fin 128) :
    val_main_v13 (F := Ideal) x0 x3 x5 (ix3 b e f)
      = inFeat x0 x5 b (nbr x3 b (⟨e.val / 64, by omega⟩ : Fin 512) (⟨e.val % 64, by omega⟩ : Fin 64)) f := by
  rw [val_main_v13_apply, val_main_call1_v13_apply, idx_v13c, v11c_at x3 hr, select_one]
  unfold val_main_call1_v12
  rw [gather_at, v11_at]
  simp only [v4c_at x3 hr]
  rfl

/-- The reshape `[16, 32768, 128] → [16, 512, 64, 128]` is row-major: `(a, n)` is row `a * 64 + n`. -/
theorem idx_v14 (b : Fin 16) (a : Fin 512) (n : Fin 64) (f : Fin 128) :
    idx_main_v14 (ix4 b a n f) = ix3 b (⟨a.val * 64 + n.val, by omega⟩ : Fin 32768) f := by
  have hb := b.isLt
  have ha := a.isLt
  have hn := n.isLt
  have hf := f.isLt
  funext c
  refine Fin.ext ?_
  match c with
  | ⟨0, _⟩ => show (((b.val * 512 + a.val) * 64 + n.val) * 128 + f.val) / 4194304 = b.val; omega
  | ⟨1, _⟩ => show (((b.val * 512 + a.val) * 64 + n.val) * 128 + f.val) / 128 % 32768 = a.val * 64 + n.val; omega
  | ⟨2, _⟩ => show (((b.val * 512 + a.val) * 64 + n.val) * 128 + f.val) % 128 = f.val; omega

/-- The gathered neighbour features at `(b, a, n, f)`. -/
theorem v14_at (x0 : FVec Ideal S16x512x128 .f32) (x3 : IVec S16x512x64 32) (x5 : FVec Ideal S128x128 .f32)
    (hr : InRange x3) (b : Fin 16) (a : Fin 512) (n : Fin 64) (f : Fin 128) :
    val_main_v14 (F := Ideal) x0 x3 x5 (ix4 b a n f) = inFeat x0 x5 b (nbr x3 b a n) f := by
  rw [val_main_v14_apply, idx_v14, v13_at x0 x3 x5 hr]
  have ha : (⟨(a.val * 64 + n.val) / 64, by omega⟩ : Fin 512) = a := Fin.ext (by show (a.val * 64 + n.val) / 64 = a.val; omega)
  have hn : (⟨(a.val * 64 + n.val) % 64, by omega⟩ : Fin 64) = n := Fin.ext (by show (a.val * 64 + n.val) % 64 = n.val; omega)
  rw [ha, hn]

/-! ## The aggregation over the neighbour slots -/

theorem idx_v16v17 (b : Fin 16) (a : Fin 512) (n : Fin 64) (f : Fin 128) :
    idx_main_v16 (idx_main_v17 (ix4 b a n f)) = ix3 b a n :=
  funext fun c => Fin.ext (by match c with | ⟨0, _⟩ => rfl | ⟨1, _⟩ => rfl | ⟨2, _⟩ => rfl)

/-- The summand: gathered neighbour feature times filter times mask. -/
theorem v18_at (x0 : FVec Ideal S16x512x128 .f32) (x2 : FVec Ideal S16x512x64x25 .f32) (x3 : IVec S16x512x64 32)
    (x4 : FVec Ideal S16x512x64 .f32) (x5 : FVec Ideal S128x128 .f32) (x6 : FVec Ideal S25x128 .f32)
    (x7 : FVec Ideal S128 .f32) (x8 : FVec Ideal S128x128 .f32) (x9 : FVec Ideal S128 .f32) (hr : InRange x3)
    (b : Fin 16) (a : Fin 512) (n : Fin 64) (f : Fin 128) :
    val_main_v18 (F := Ideal) x0 x2 x3 x4 x5 x6 x7 x8 x9 (ix4 b a n f)
      = (inFeat x0 x5 b (nbr x3 b a n) f * filt x2 x6 x7 x8 x9 b a n f) * x4 (ix3 b a n) := by
  rw [val_main_v18_apply, val_main_v15_apply, val_main_v17_apply, val_main_v16_apply, idx_v16v17,
    v14_at x0 x3 x5 hr, v10_at]
  rfl

theorem idx_v19 (b : Fin 16) (a : Fin 512) (f : Fin 128) (k : Fin 64) :
    idx_main_v19 (ix3 b a f) k = ix4 b a k f :=
  funext fun c => Fin.ext (by match c with | ⟨0, _⟩ => rfl | ⟨1, _⟩ => rfl | ⟨2, _⟩ => rfl | ⟨3, _⟩ => rfl)

/-- The sum over the neighbour slots, from zero. -/
theorem v19_at (x0 : FVec Ideal S16x512x128 .f32) (x2 : FVec Ideal S16x512x64x25 .f32) (x3 : IVec S16x512x64 32)
    (x4 : FVec Ideal S16x512x64 .f32) (x5 : FVec Ideal S128x128 .f32) (x6 : FVec Ideal S25x128 .f32)
    (x7 : FVec Ideal S128 .f32) (x8 : FVec Ideal S128x128 .f32) (x9 : FVec Ideal S128 .f32) (hr : InRange x3)
    (b : Fin 16) (a : Fin 512) (f : Fin 128) :
    val_main_v19 (F := Ideal) x0 x2 x3 x4 x5 x6 x7 x8 x9 (ix3 b a f) = agg x0 x2 x3 x4 x5 x6 x7 x8 x9 b a f := by
  rw [val_main_v19_apply, val_main_cst_0_apply]
  simp only [idx_v19, v18_at x0 x2 x3 x4 x5 x6 x7 x8 x9 hr, Ideal.ofBits_def, Ideal.ofBits_zero_f32, zero_add]
  rfl

/-! ## The output projection and the last activation -/

theorem lidx_v20 (b : Fin 16) (a : Fin 512) (o : Fin 128) (k : Fin 128) :
    lidx_main_v20 (ix3 b a o) k = ix3 b a k :=
  funext fun c => Fin.ext (by match c with | ⟨0, _⟩ => rfl | ⟨1, _⟩ => rfl | ⟨2, _⟩ => rfl)

theorem ridx_v20 (b : Fin 16) (a : Fin 512) (o : Fin 128) (k : Fin 128) :
    ridx_main_v20 (ix3 b a o) k = ix2 k o :=
  funext fun c => Fin.ext (by match c with | ⟨0, _⟩ => rfl | ⟨1, _⟩ => rfl)

theorem idx_v21v22 (b : Fin 16) (a : Fin 512) (o : Fin 128) :
    idx_main_v21 (idx_main_v22 (ix3 b a o)) = ix1 o :=
  funext fun c => Fin.ext (by match c with | ⟨0, _⟩ => rfl)

/-- The output layer before its activation: the aggregate times the output weight matrix, plus the output bias. -/
theorem v23_at (x0 : FVec Ideal S16x512x128 .f32) (x2 : FVec Ideal S16x512x64x25 .f32) (x3 : IVec S16x512x64 32)
    (x4 : FVec Ideal S16x512x64 .f32) (x5 : FVec Ideal S128x128 .f32) (x6 : FVec Ideal S25x128 .f32)
    (x7 : FVec Ideal S128 .f32) (x8 : FVec Ideal S128x128 .f32) (x9 : FVec Ideal S128 .f32)
    (x10 : FVec Ideal S128x128 .f32) (x11 : FVec Ideal S128 .f32) (hr : InRange x3)
    (b : Fin 16) (a : Fin 512) (o : Fin 128) :
    val_main_v23 (F := Ideal) x0 x2 x3 x4 x5 x6 x7 x8 x9 x10 x11 (ix3 b a o)
      = (∑ f : Fin 128, agg x0 x2 x3 x4 x5 x6 x7 x8 x9 b a f * x10 (ix2 f o)) + x11 (ix1 o) := by
  rw [val_main_v23_apply, val_main_v20_apply, val_main_v22_apply, val_main_v21_apply]
  simp only [lidx_v20, ridx_v20, idx_v21v22, v19_at x0 x2 x3 x4 x5 x6 x7 x8 x9 hr, Ideal.addf_def]

/-- The last activation, at any index: the second softplus callee followed by the subtraction of the constant is the
    shifted softplus of the callee's argument. -/
theorem v26_eq_ssp (x0 : FVec Ideal S16x512x128 .f32) (x2 : FVec Ideal S16x512x64x25 .f32) (x3 : IVec S16x512x64 32)
    (x4 : FVec Ideal S16x512x64 .f32) (x5 : FVec Ideal S128x128 .f32) (x6 : FVec Ideal S25x128 .f32)
    (x7 : FVec Ideal S128 .f32) (x8 : FVec Ideal S128x128 .f32) (x9 : FVec Ideal S128 .f32)
    (x10 : FVec Ideal S128x128 .f32) (x11 : FVec Ideal S128 .f32) (i : S16x512x128.Idx) :
    val_main_v26 (F := Ideal) x0 x2 x3 x4 x5 x6 x7 x8 x9 x10 x11 i
      = ssp (val_main_v23 (F := Ideal) x0 x2 x3 x4 x5 x6 x7 x8 x9 x10 x11 i) := by
  simp only [val_main_v26_apply, val_main_v24_apply, val_main_call2_v4_apply, val_main_call2_v6_apply,
    val_main_call2_v11_apply, val_main_call2_v1_apply, val_main_call2_v10_apply, val_main_call2_v9_apply,
    val_main_call2_v8_apply, val_main_call2_v7_apply, val_main_call2_v3_apply, val_main_call2_v0_apply,
    val_main_call2_v2_apply, val_main_call2_v5_apply, val_main_call2_cst_apply, val_main_v25_apply, val_main_cst_1_apply]
  exact ref_ssp _

/-- THE REFERENCE IS THE SPECIFICATION: under the range hypothesis on the neighbour indices, the reference program's
    result is the continuous-filter convolution `G`, index by index. -/
theorem ref_eq_G (x0 : FVec Ideal S16x512x128 .f32) (x2 : FVec Ideal S16x512x64x25 .f32) (x3 : IVec S16x512x64 32)
    (x4 : FVec Ideal S16x512x64 .f32) (x5 : FVec Ideal S128x128 .f32) (x6 : FVec Ideal S25x128 .f32)
    (x7 : FVec Ideal S128 .f32) (x8 : FVec Ideal S128x128 .f32) (x9 : FVec Ideal S128 .f32)
    (x10 : FVec Ideal S128x128 .f32) (x11 : FVec Ideal S128 .f32) (hr : Cert.Spec.InRange x3) :
    val_main_v26 (F := Ideal) x0 x2 x3 x4 x5 x6 x7 x8 x9 x10 x11
      = Cert.Spec.G x0 x2 x3 x4 x5 x6 x7 x8 x9 x10 x11 := by
  funext i
  obtain ⟨b, a, o, rfl⟩ : ∃ (b : Fin 16) (a : Fin 512) (o : Fin 128), i = ix3 b a o := ⟨i 0, i 1, i 2, eq_ix3 i⟩
  rw [v26_eq_ssp, v23_at x0 x2 x3 x4 x5 x6 x7 x8 x9 x10 x11 hr]
  rfl

end Cert.RefValue

end
-- ==== Proof.PreRange.lean ====
/-
  The neighbour indices are atom indices, read out of the precondition.

  The precondition is one conjunction: for each float argument "every entry has |x| < +inf", and last, for the integer
  argument of neighbour indices, "every entry n has 0 ≤ n and n < 512, compared signed". Each conjunct is an all-quantifier
  written as a reduction by `and` of an array of bits, starting from the bit 1; the conjunction is the `and` of those
  reductions. So if the whole is 1, the last reduction is 1 (an `and` of bits is 1 only when both are), hence every bit
  it reduced is 1, and the bit at index i is itself the `and` of the two signed comparisons of entry i with the constants
  0 and 512 (each constant a scalar laid over the whole array, so its entry at every index is the scalar). A signed
  comparison bit is 1 exactly when the order holds between the words read as signed integers, and the words 0 and 512
  read as the integers 0 and 512.
-/
import proofs.«425397_j9715216023986_1_alg».proof.Pre_finite_inputs
import proofs.«425397_j9715216023986_1_alg».proof.Proof.Gen.Pre_finite_inputs
import proofs.«425397_j9715216023986_1_alg».proof.Proof.Spec
import Idealize.ShloMosaic.Lib.ReduceAll
import Idealize.ShloMosaic.Lib.StableHlo.Predicate

namespace Cert.PreRange

open Idealize.ShloMosaic

/-- A scalar has one index: there are no coordinates on which two indices could differ. -/
instance subsingleton_scalar_idx : Subsingleton Cert.Pre_finite_inputs.S_.Idx :=
  ⟨fun _ _ => funext fun d => d.elim0⟩

/-- One entry's bit: the `and` of "0 ≤ n" and "n < 512", both signed, is 1 only for an integer n in [0, 512). -/
theorem range_of_bits (n : BitVec 32)
    (e : IntOp.andi (IntOp.cmpi .sge n 0#32) (IntOp.cmpi .slt n 512#32) = 1#1) :
    0 ≤ n.toInt ∧ n.toInt < 512 := by
  obtain ⟨hge, hlt⟩ := IntOp.andi_eq_one.1 e
  have h0 : (0#32 : BitVec 32).toInt ≤ n.toInt := IntOp.cmpi_sge.1 hge
  have h512 : n.toInt < (512#32 : BitVec 32).toInt := IntOp.cmpi_slt.1 hlt
  have z0 : (0#32 : BitVec 32).toInt = 0 := by decide
  have z512 : (512#32 : BitVec 32).toInt = 512 := by decide
  rw [z0] at h0
  rw [z512] at h512
  exact ⟨h0, h512⟩

/-- The precondition's last conjunct: every neighbour index lies in [0, 512) as a signed integer. -/
theorem inRange_of_pre {F : FTy → Type} [FloatOps F] [Cert.Pre_finite_inputs.Facts]
    (a0 : FVec F Cert.Pre_finite_inputs.S16x512x128 .f32) (a1 : FVec F Cert.Pre_finite_inputs.S16x512x64 .f32) (a2 : FVec F Cert.Pre_finite_inputs.S16x512x64x25 .f32)
    (a3 : IVec Cert.Pre_finite_inputs.S16x512x64 32) (a4 : FVec F Cert.Pre_finite_inputs.S16x512x64 .f32) (a5 : FVec F Cert.Pre_finite_inputs.S128x128 .f32)
    (a6 : FVec F Cert.Pre_finite_inputs.S25x128 .f32) (a7 : FVec F Cert.Pre_finite_inputs.S128 .f32) (a8 : FVec F Cert.Pre_finite_inputs.S128x128 .f32)
    (a9 : FVec F Cert.Pre_finite_inputs.S128 .f32) (a10 : FVec F Cert.Pre_finite_inputs.S128x128 .f32) (a11 : FVec F Cert.Pre_finite_inputs.S128 .f32)
    (h : Cert.Pre_finite_inputs.fn (F := F) a0 a1 a2 a3 a4 a5 a6 a7 a8 a9 a10 a11 = fun _ => 1#1) :
    Cert.Spec.InRange a3 := by
  -- the one entry of the scalar result, with the chain of operations laid open down to its last `and`
  have e := congrFun h ValueIdx.ix0
  dsimp only [Cert.Pre_finite_inputs.fn, Cert.Pre_finite_inputs.fn_part1, Cert.Pre_finite_inputs.fn_part2,
    Cert.Pre_finite_inputs.fn_part3] at e
  -- the conjunction is 1, so its last conjunct, the all-quantifier over the index array, is 1
  have e2 := (IntOp.andi_eq_one.1 e).2
  intro i
  -- so the bit at every index is 1
  have ei := Host.reduce_andi_all _ _ _ _ _ e2 i
  exact range_of_bits (a3 i) ei

end Cert.PreRange
-- ==== Proof.lean ====
/-
  The certificate of the continuous-filter convolution kernel against its reference.

  Both programs compute, over the extended reals, the function `Cert.Spec.G` of the argument arrays (Proof/Spec.lean):
  the filter network (two dense layers with a shifted softplus between them) applied to the radial basis values, the input
  projection of the atom features gathered at the neighbour indices, their product masked and summed over the neighbour
  slots, and the output projection with a last shifted softplus.
  * The kernel gathers by a one-hot matrix product over the 512 atoms of a batch: a row of the one-hot matrix has a single 1 at
    the neighbour index, so the product picks that row of the projected features (Proof/KernelAgg.lean). It works a batch
    and a tile of 128 atoms per grid point; the 64 output blocks tile the result array (Proof/KernelFinal.lean).
  * The reference gathers with `take_along_axis`, whose lowering wraps negative indices, clamps the gather and masks
    out-of-range rows; for indices in `[0, 512)` all three are the plain row read (Proof/RefValue.lean).
  * Sums over a contracted axis, over the neighbour slots and the two spellings of the softplus agree on the extended reals
    without any finiteness: only commutative sums and the identities `z − 0 = z`, `0 − a = −a` are used.
  The precondition's index-range conjunct (every neighbour index in `[0, 512)`) is what the gather needs; it is read out of
  the printed precondition in Proof/PreRange.lean. The frames are the generated ones; the reference's frame is its run.
-/
import proofs.«425397_j9715216023986_1_alg».proof.Defs
import proofs.«425397_j9715216023986_1_alg».proof.Proof.Gen.Kernel
import proofs.«425397_j9715216023986_1_alg».proof.Proof.Gen.Kernel.Skeleton
import proofs.«425397_j9715216023986_1_alg».proof.Proof.Gen.Kernel.Launch
import proofs.«425397_j9715216023986_1_alg».proof.Proof.Gen.Kernel.Points
import proofs.«425397_j9715216023986_1_alg».proof.Proof.Gen.Kernel.Frame
import proofs.«425397_j9715216023986_1_alg».proof.Proof.Gen.KernelIdeal
import proofs.«425397_j9715216023986_1_alg».proof.Proof.Gen.KernelIdeal.Skeleton
import proofs.«425397_j9715216023986_1_alg».proof.Proof.Gen.KernelIdeal.Launch
import proofs.«425397_j9715216023986_1_alg».proof.Proof.Gen.KernelIdeal.Points
import proofs.«425397_j9715216023986_1_alg».proof.Proof.Gen.KernelIdeal.Frame
import proofs.«425397_j9715216023986_1_alg».proof.Proof.Gen.KernelIdeal.Value
import proofs.«425397_j9715216023986_1_alg».proof.Proof.Gen.ReferenceIdeal
import proofs.«425397_j9715216023986_1_alg».proof.Proof.Gen.Pre_finite_inputs
import proofs.«425397_j9715216023986_1_alg».proof.Proof.KernelFinal
import proofs.«425397_j9715216023986_1_alg».proof.Proof.RefValue
import proofs.«425397_j9715216023986_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- Both programs end with the specification of the (agreeing) argument arrays in their result array. -/
theorem algebraic : Cert.algebraic_KernelIdeal_ReferenceIdeal := by
  intro m ρ m' ρ' hpre hagree
  have hr : ∀ c : Dev Cert.KernelIdeal.nD, Cert.Spec.InRange (m ((c.tc : Thread Cert.KernelIdeal.nD Cert.KernelIdeal.τ).loc Cert.KernelIdeal.main_arg3)) :=
    fun c => Cert.PreRange.inRange_of_pre _ _ _ _ _ _ _ _ _ _ _ _ (hpre c)
  refine ⟨fun c => Cert.KernelRead.specOf m c, Cert.KernelRead.run m ρ hr, ?_⟩
  refine (θ_run Cert.ReferenceIdeal.defs _ _).mono (fun _ h c => ⟨(h c).1.trans ?_, (h c).2⟩)
    (Cert.ReferenceIdeal.RunP.run (F := Ideal) m' ρ')
  obtain ⟨e0, _, e2, e3, e4, e5, e6, e7, e8, e9, e10, e11⟩ := hagree c
  rw [Cert.ReferenceIdeal.ReadP.val_main_v26_eq, e0, e2, e3, e4, e5, e6, e7, e8, e9, e10, e11]
  exact Cert.RefValue.ref_eq_G _ _ _ _ _ _ _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
